-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v161) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x600x92 : Shape := ⟨3, ![16, 600, 92]⟩
abbrev S16x600x4 : Shape := ⟨3, ![16, 600, 4]⟩
abbrev S2400x4 : Shape := ⟨2, ![2400, 4]⟩
abbrev S2400 : Shape := ⟨1, ![2400]⟩
abbrev S_ : Shape := ⟨0, ![]⟩

class Facts : Prop where
  bcast_S_S16x600x92 : S_.BroadcastsInDim S16x600x92 (![] : Fin 0 → Fin S16x600x92.rank)
  reducesTo_S16x600x92_S_d0_1_2 : S16x600x92.ReducesTo [0, 1, 2] S_
  h_S_ : 0 < S_.numel
  bcast_S_S16x600x4 : S_.BroadcastsInDim S16x600x4 (![] : Fin 0 → Fin S16x600x4.rank)
  reducesTo_S16x600x4_S_d0_1_2 : S16x600x4.ReducesTo [0, 1, 2] S_
  bcast_S_S2400x4 : S_.BroadcastsInDim S2400x4 (![] : Fin 0 → Fin S2400x4.rank)
  reducesTo_S2400x4_S_d0_1 : S2400x4.ReducesTo [0, 1] S_
  bcast_S_S2400 : S_.BroadcastsInDim S2400 (![] : Fin 0 → Fin S2400.rank)
  reducesTo_S2400_S_d0 : S2400.ReducesTo [0] S_

variable [Facts]

def fn_part1 {F : FTy → Type} [FloatOps F] (main_arg3 : IVec S2400 32) (main_v13 : IVec S_ 1) (main_v15 : IVec S2400 1) (main_c_5 : IVec S_ 32) : IVec S_ 1 :=
  let main_v16 : IVec S2400 32 := broadcastInDim S2400 ![] bcast_S_S2400 main_c_5
  let main_v17 : IVec S2400 1 := cmpi .slt main_arg3 main_v16
  let main_v18 : IVec S2400 1 := andi main_v15 main_v17
  let main_c_6 : IVec S_ 1 := constantI S_ 1 1#1
  let main_v19 : IVec S_ 1 := (fun x v => Host.reduce IntOp.andi x v reducesTo_S2400_S_d0 h_S_) main_v18 main_c_6
  let main_v20 : IVec S_ 1 := andi main_v13 main_v19
  main_v20

def fn {F : FTy → Type} [FloatOps F] (main_arg0 : FVec F S16x600x92 .f32) (main_arg1 : FVec F S16x600x4 .f32) (main_arg2 : FVec F S2400x4 .f32) (main_arg3 : IVec S2400 32) : IVec S_ 1 :=
  let main_v0 : FVec F S16x600x92 .f32 := Host.absf main_arg0
  let main_cst : FVec F S_ .f32 := constant S_ .f32 0x7F800000#32
  let main_v1 : FVec F S16x600x92 .f32 := broadcastInDim S16x600x92 ![] bcast_S_S16x600x92 main_cst
  let main_v2 : IVec S16x600x92 1 := cmpf .olt main_v0 main_v1
  let main_c : IVec S_ 1 := constantI S_ 1 1#1
  let main_v3 : IVec S_ 1 := (fun x v => Host.reduce IntOp.andi x v reducesTo_S16x600x92_S_d0_1_2 h_S_) main_v2 main_c
  let main_v4 : FVec F S16x600x4 .f32 := Host.absf main_arg1
  let main_cst_0 : FVec F S_ .f32 := constant S_ .f32 0x7F800000#32
  let main_v5 : FVec F S16x600x4 .f32 := broadcastInDim S16x600x4 ![] bcast_S_S16x600x4 main_cst_0
  let main_v6 : IVec S16x600x4 1 := cmpf .olt main_v4 main_v5
  let main_c_1 : IVec S_ 1 := constantI S_ 1 1#1
  let main_v7 : IVec S_ 1 := (fun x v => Host.reduce IntOp.andi x v reducesTo_S16x600x4_S_d0_1_2 h_S_) main_v6 main_c_1
  let main_v8 : IVec S_ 1 := andi main_v3 main_v7
  let main_v9 : FVec F S2400x4 .f32 := Host.absf main_arg2
  let main_cst_2 : FVec F S_ .f32 := constant S_ .f32 0x7F800000#32
  let main_v10 : FVec F S2400x4 .f32 := broadcastInDim S2400x4 ![] bcast_S_S2400x4 main_cst_2
  let main_v11 : IVec S2400x4 1 := cmpf .olt main_v9 main_v10
  let main_c_3 : IVec S_ 1 := constantI S_ 1 1#1
  let main_v12 : IVec S_ 1 := (fun x v => Host.reduce IntOp.andi x v reducesTo_S2400x4_S_d0_1 h_S_) main_v11 main_c_3
  let main_v13 : IVec S_ 1 := andi main_v8 main_v12
  let main_c_4 : IVec S_ 32 := constantI S_ 32 0#32
  let main_v14 : IVec S2400 32 := broadcastInDim S2400 ![] bcast_S_S2400 main_c_4
  let main_v15 : IVec S2400 1 := cmpi .sge main_arg3 main_v14
  let main_c_5 : IVec S_ 32 := constantI S_ 32 92#32
  fn_part1 (F := F) main_arg3 main_v13 main_v15 main_c_5
-- ==== Kernel.lean ====
abbrev S16x600x92 : Shape := ⟨3, ![16, 600, 92]⟩
abbrev S16x600x4 : Shape := ⟨3, ![16, 600, 4]⟩
abbrev S2400x4 : Shape := ⟨2, ![2400, 4]⟩
abbrev S2400 : Shape := ⟨1, ![2400]⟩
abbrev S9600x92 : Shape := ⟨2, ![9600, 92]⟩
abbrev S9600x4 : Shape := ⟨2, ![9600, 4]⟩
abbrev S4x2400 : Shape := ⟨2, ![4, 2400]⟩
abbrev S92 : Shape := ⟨1, ![92]⟩
abbrev S92x1 : Shape := ⟨2, ![92, 1]⟩
abbrev S1x2400 : Shape := ⟨2, ![1, 2400]⟩
abbrev S92x2400 : Shape := ⟨2, ![92, 2400]⟩
abbrev S9600x2400 : Shape := ⟨2, ![9600, 2400]⟩
abbrev S480x92 : Shape := ⟨2, ![480, 92]⟩
abbrev S480x4 : Shape := ⟨2, ![480, 4]⟩
abbrev S480x2400 : Shape := ⟨2, ![480, 2400]⟩
abbrev S480 : Shape := ⟨1, ![480]⟩
abbrev S480x1 : Shape := ⟨2, ![480, 1]⟩
abbrev S16x600x2400 : Shape := ⟨3, ![16, 600, 2400]⟩

abbrev nBuf : Space → Nat
  | .hbm => 16
  | .vmem => 8
  | .smem => 0
  | _ => 0

abbrev bufTy : (tb : Table) → Fin (tcTables nBuf tb) → BufTy
  | .hbm, ⟨0, _⟩ => ⟨S16x600x92, .f32⟩
  | .hbm, ⟨1, _⟩ => ⟨S16x600x4, .f32⟩
  | .hbm, ⟨2, _⟩ => ⟨S2400x4, .f32⟩
  | .hbm, ⟨3, _⟩ => ⟨S2400, .i32⟩
  | .hbm, ⟨4, _⟩ => ⟨S9600x92, .f32⟩
  | .hbm, ⟨5, _⟩ => ⟨S9600x4, .f32⟩
  | .hbm, ⟨6, _⟩ => ⟨S4x2400, .f32⟩
  | .hbm, ⟨7, _⟩ => ⟨S92, .i32⟩
  | .hbm, ⟨8, _⟩ => ⟨S92x1, .i32⟩
  | .hbm, ⟨9, _⟩ => ⟨S1x2400, .i32⟩
  | .hbm, ⟨10, _⟩ => ⟨S92x2400, .i32⟩
  | .hbm, ⟨11, _⟩ => ⟨S92x2400, .i32⟩
  | .hbm, ⟨12, _⟩ => ⟨S92x2400, .i1⟩
  | .hbm, ⟨13, _⟩ => ⟨S92x2400, .bf16⟩
  | .hbm, ⟨14, _⟩ => ⟨S9600x2400, .f32⟩
  | .hbm, ⟨15, _⟩ => ⟨S16x600x2400, .f32⟩
  | .local _ .vmem, ⟨0, _⟩ => ⟨S480x92, .f32⟩
  | .local _ .vmem, ⟨1, _⟩ => ⟨S480x92, .f32⟩
  | .local _ .vmem, ⟨2, _⟩ => ⟨S480x4, .f32⟩
  | .local _ .vmem, ⟨3, _⟩ => ⟨S480x4, .f32⟩
  | .local _ .vmem, ⟨4, _⟩ => ⟨S4x2400, .f32⟩
  | .local _ .vmem, ⟨5, _⟩ => ⟨S92x2400, .bf16⟩
  | .local _ .vmem, ⟨6, _⟩ => ⟨S480x2400, .f32⟩
  | .local _ .vmem, ⟨7, _⟩ => ⟨S480x2400, .f32⟩
  | _, _ => ⟨S16x600x92, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S480x92 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S480x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x2400 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S92x2400 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S480x2400 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S16x600x92_S9600x92 : S16x600x92.ShapeCasts S9600x92
  shapeCasts_S16x600x4_S9600x4 : S16x600x4.ShapeCasts S9600x4
  transposes_S2400x4_S4x2400_1_0 : S2400x4.Transposes [1, 0] S4x2400
  bcast_S92_S92x1_0 : S92.BroadcastsInDim S92x1 (![0] : Fin 1 → Fin S92x1.rank)
  bcast_S2400_S1x2400_1 : S2400.BroadcastsInDim S1x2400 (![1] : Fin 1 → Fin S1x2400.rank)
  bcast_S92x1_S92x2400_0_1 : S92x1.BroadcastsInDim S92x2400 (![0, 1] : Fin 2 → Fin S92x2400.rank)
  bcast_S1x2400_S92x2400_0_1 : S1x2400.BroadcastsInDim S92x2400 (![0, 1] : Fin 2 → Fin S92x2400.rank)
  inb_S480x92_S480x92_0_0 : ∀ a, (![0, 0] : Fin 2 → Nat) a + S480x92.size a ≤ S480x92.size a
  h_S480x92 : 0 < S480x92.numel
  shapeCasts_S480x92_S480x92 : S480x92.ShapeCasts S480x92
  reduces_S480x92_S480 : S480x92.Reduces [1] S480
  shapeCasts_S480_S480x1 : S480.ShapeCasts S480x1
  broadcasts_S480x1_S480x92 : S480x1.Broadcasts S480x92
  inb_S480x4_S480x4_0_0 : ∀ a, (![0, 0] : Fin 2 → Nat) a + S480x4.size a ≤ S480x4.size a
  h_S480x4 : 0 < S480x4.numel
  shapeCasts_S480x4_S480x4 : S480x4.ShapeCasts S480x4
  slices_S480x4_o0_0_S480x1 : S480x4.Slices ![0, 0] S480x1
  slices_S480x4_o0_1_S480x1 : S480x4.Slices ![0, 1] S480x1
  slices_S480x4_o0_2_S480x1 : S480x4.Slices ![0, 2] S480x1
  slices_S480x4_o0_3_S480x1 : S480x4.Slices ![0, 3] S480x1
  inb_S4x2400_S4x2400_0_0 : ∀ a, (![0, 0] : Fin 2 → Nat) a + S4x2400.size a ≤ S4x2400.size a
  h_S4x2400 : 0 < S4x2400.numel
  shapeCasts_S4x2400_S4x2400 : S4x2400.ShapeCasts S4x2400
  slices_S4x2400_o0_0_S1x2400 : S4x2400.Slices ![0, 0] S1x2400
  slices_S4x2400_o1_0_S1x2400 : S4x2400.Slices ![1, 0] S1x2400
  slices_S4x2400_o2_0_S1x2400 : S4x2400.Slices ![2, 0] S1x2400
  slices_S4x2400_o3_0_S1x2400 : S4x2400.Slices ![3, 0] S1x2400
  broadcasts_S480x1_S480x2400 : S480x1.Broadcasts S480x2400
  broadcasts_S1x2400_S480x2400 : S1x2400.Broadcasts S480x2400
  inb_S92x2400_S92x2400_0_0 : ∀ a, (![0, 0] : Fin 2 → Nat) a + S92x2400.size a ≤ S92x2400.size a
  h_S92x2400 : 0 < S92x2400.numel
  shapeCasts_S92x2400_S92x2400 : S92x2400.ShapeCasts S92x2400
  bitsLt_bf16_f32 : FTy.bits .bf16 < FTy.bits .f32
  inb_S480x2400_S480x2400_0_0 : ∀ a, (![0, 0] : Fin 2 → Nat) a + S480x2400.size a ≤ S480x2400.size a
  h_S480x2400 : 0 < S480x2400.numel
  shapeCasts_S9600x2400_S16x600x2400 : S9600x2400.ShapeCasts S16x600x2400
  dot_S480x92_S92x2400_S480x2400_1_0_0_1_n_n_wf : DotDims.WF S480x92 S92x2400 S480x2400 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S480x92.size a ≤ S9600x92.size a
  hwx0_0 : ∀ i : grid0.Coords, EltTy.bits .f32 = 32 ∨ (Rect.block (s := S9600x92) S480x92.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S480x4.size a ≤ S9600x4.size a
  hwx0_1 : ∀ i : grid0.Coords, EltTy.bits .f32 = 32 ∨ (Rect.block (s := S9600x4) S480x4.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4x2400.size a ≤ S4x2400.size a
  hwx0_2 : ∀ i : grid0.Coords, EltTy.bits .f32 = 32 ∨ (Rect.block (s := S4x2400) S4x2400.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S92x2400.size a ≤ S92x2400.size a
  hwx0_3 : ∀ i : grid0.Coords, EltTy.bits .bf16 = 32 ∨ (Rect.block (s := S92x2400) S92x2400.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S480x2400.size a ≤ S9600x2400.size a
  hwx0_4 : ∀ i : grid0.Coords, EltTy.bits .f32 = 32 ∨ (Rect.block (s := S9600x2400) S480x2400.size (cc0_transform_4 i) (hinb0_4 i)).WholeWords (EltTy.packing .f32)

variable [Facts₀]

def dot_S480x92_S92x2400_S480x2400_1_0_0_1_n_n : DotDims S480x92 S92x2400 S480x2400 where
  lhsContracting := [1]
  rhsContracting := [0]
  lhsNonContracting := [0]
  rhsNonContracting := [1]
  lhsBatch := []
  rhsBatch := []
  wf := dot_S480x92_S92x2400_S480x2400_1_0_0_1_n_n_wf

abbrev win0_0 : Pipeline.Window sig grid0 :=
  Pipeline.Window.ofSpec (Memref.whole main_v0) S480x92.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S480x4.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S4x2400.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S92x2400.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v10) S480x2400.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16x600x92 : Shape := ⟨3, ![16, 600, 92]⟩
abbrev S16x600x4 : Shape := ⟨3, ![16, 600, 4]⟩
abbrev S2400x4 : Shape := ⟨2, ![2400, 4]⟩
abbrev S2400 : Shape := ⟨1, ![2400]⟩
abbrev S9600x92 : Shape := ⟨2, ![9600, 92]⟩
abbrev S_ : Shape := ⟨0, ![]⟩
abbrev S9600 : Shape := ⟨1, ![9600]⟩
abbrev S9600x1 : Shape := ⟨2, ![9600, 1]⟩
abbrev S9600x4 : Shape := ⟨2, ![9600, 4]⟩
abbrev S2400x1 : Shape := ⟨2, ![2400, 1]⟩
abbrev S9600x2400 : Shape := ⟨2, ![9600, 2400]⟩
abbrev S9600x1x4 : Shape := ⟨3, ![9600, 1, 4]⟩
abbrev S1x2400x4 : Shape := ⟨3, ![1, 2400, 4]⟩
abbrev S9600x2400x4 : Shape := ⟨3, ![9600, 2400, 4]⟩
abbrev S9600x2 : Shape := ⟨2, ![9600, 2]⟩
abbrev S9600x1x2 : Shape := ⟨3, ![9600, 1, 2]⟩
abbrev S2400x2 : Shape := ⟨2, ![2400, 2]⟩
abbrev S1x2400x2 : Shape := ⟨3, ![1, 2400, 2]⟩
abbrev S9600x2400x2 : Shape := ⟨3, ![9600, 2400, 2]⟩
abbrev S9600x2400x1 : Shape := ⟨3, ![9600, 2400, 1]⟩
abbrev S1x2400 : Shape := ⟨2, ![1, 2400]⟩
abbrev S16x600x2400 : Shape := ⟨3, ![16, 600, 2400]⟩

abbrev nBuf : Space → Nat
  | .hbm => 189
  | .vmem => 0
  | .smem => 0
  | _ => 0

abbrev hbmTy0_0 (i : Nat) : BufTy := match i % 128 with
  | 0 => ⟨S16x600x92, .f32⟩
  | 1 => ⟨S16x600x4, .f32⟩
  | 2 => ⟨S2400x4, .f32⟩
  | 3 => ⟨S2400, .i32⟩
  | 4 => ⟨S9600x92, .f32⟩
  | 5 => ⟨S_, .f32⟩
  | 6 => ⟨S9600, .f32⟩
  | 7 => ⟨S_, .f32⟩
  | 8 => ⟨S9600, .f32⟩
  | 9 => ⟨S9600, .f32⟩
  | 10 => ⟨S9600x1, .f32⟩
  | 11 => ⟨S9600x92, .f32⟩
  | 12 => ⟨S9600x92, .f32⟩
  | 13 => ⟨S9600x92, .f32⟩
  | 14 => ⟨S_, .f32⟩
  | 15 => ⟨S9600, .f32⟩
  | 16 => ⟨S9600x1, .f32⟩
  | 17 => ⟨S9600x92, .f32⟩
  | 18 => ⟨S9600x92, .f32⟩
  | 19 => ⟨S9600x4, .f32⟩
  | 20 => ⟨S_, .i32⟩
  | 21 => ⟨S2400, .i32⟩
  | 22 => ⟨S2400, .i1⟩
  | 23 => ⟨S_, .i32⟩
  | 24 => ⟨S2400, .i32⟩
  | 25 => ⟨S2400, .i32⟩
  | 26 => ⟨S2400, .i32⟩
  | 27 => ⟨S2400x1, .i32⟩
  | 28 => ⟨S9600x2400, .f32⟩
  | 29 => ⟨S9600x2400, .f32⟩
  | 30 => ⟨S9600x1x4, .f32⟩
  | 31 => ⟨S1x2400x4, .f32⟩
  | 32 => ⟨S9600x2400x4, .f32⟩
  | 33 => ⟨S9600x2400x4, .f32⟩
  | 34 => ⟨S9600x2400x4, .f32⟩
  | 35 => ⟨S9600x2400x4, .f32⟩
  | 36 => ⟨S_, .f32⟩
  | 37 => ⟨S9600x2400, .f32⟩
  | 38 => ⟨S9600x1, .f32⟩
  | 39 => ⟨S9600, .f32⟩
  | 40 => ⟨S9600x1, .f32⟩
  | 41 => ⟨S9600, .f32⟩
  | 42 => ⟨S9600x1, .f32⟩
  | 43 => ⟨S9600, .f32⟩
  | 44 => ⟨S9600x1, .f32⟩
  | 45 => ⟨S9600, .f32⟩
  | 46 => ⟨S_, .f32⟩
  | 47 => ⟨S9600, .f32⟩
  | 48 => ⟨S9600, .f32⟩
  | 49 => ⟨S9600, .f32⟩
  | 50 => ⟨S_, .f32⟩
  | 51 => ⟨S9600, .f32⟩
  | 52 => ⟨S9600, .f32⟩
  | 53 => ⟨S9600, .f32⟩
  | 54 => ⟨S_, .f32⟩
  | 55 => ⟨S9600, .f32⟩
  | 56 => ⟨S9600, .f32⟩
  | 57 => ⟨S9600, .f32⟩
  | 58 => ⟨S_, .f32⟩
  | 59 => ⟨S9600, .f32⟩
  | 60 => ⟨S9600, .f32⟩
  | 61 => ⟨S9600, .f32⟩
  | 62 => ⟨S9600x1, .f32⟩
  | 63 => ⟨S9600x1, .f32⟩
  | 64 => ⟨S9600x1, .f32⟩
  | 65 => ⟨S9600x1, .f32⟩
  | 66 => ⟨S9600x4, .f32⟩
  | 67 => ⟨S2400x1, .f32⟩
  | 68 => ⟨S2400, .f32⟩
  | 69 => ⟨S2400x1, .f32⟩
  | 70 => ⟨S2400, .f32⟩
  | 71 => ⟨S2400x1, .f32⟩
  | 72 => ⟨S2400, .f32⟩
  | 73 => ⟨S2400x1, .f32⟩
  | 74 => ⟨S2400, .f32⟩
  | 75 => ⟨S_, .f32⟩
  | 76 => ⟨S2400, .f32⟩
  | 77 => ⟨S2400, .f32⟩
  | 78 => ⟨S2400, .f32⟩
  | 79 => ⟨S_, .f32⟩
  | 80 => ⟨S2400, .f32⟩
  | 81 => ⟨S2400, .f32⟩
  | 82 => ⟨S2400, .f32⟩
  | 83 => ⟨S_, .f32⟩
  | 84 => ⟨S2400, .f32⟩
  | 85 => ⟨S2400, .f32⟩
  | 86 => ⟨S2400, .f32⟩
  | 87 => ⟨S_, .f32⟩
  | 88 => ⟨S2400, .f32⟩
  | 89 => ⟨S2400, .f32⟩
  | 90 => ⟨S2400, .f32⟩
  | 91 => ⟨S2400x1, .f32⟩
  | 92 => ⟨S2400x1, .f32⟩
  | 93 => ⟨S2400x1, .f32⟩
  | 94 => ⟨S2400x1, .f32⟩
  | 95 => ⟨S2400x4, .f32⟩
  | 96 => ⟨S9600x1, .f32⟩
  | 97 => ⟨S9600, .f32⟩
  | 98 => ⟨S9600x1, .f32⟩
  | 99 => ⟨S9600, .f32⟩
  | 100 => ⟨S9600, .f32⟩
  | 101 => ⟨S9600x1, .f32⟩
  | 102 => ⟨S9600, .f32⟩
  | 103 => ⟨S9600x1, .f32⟩
  | 104 => ⟨S9600, .f32⟩
  | 105 => ⟨S9600, .f32⟩
  | 106 => ⟨S9600, .f32⟩
  | 107 => ⟨S2400x1, .f32⟩
  | 108 => ⟨S2400, .f32⟩
  | 109 => ⟨S2400x1, .f32⟩
  | 110 => ⟨S2400, .f32⟩
  | 111 => ⟨S2400, .f32⟩
  | 112 => ⟨S2400x1, .f32⟩
  | 113 => ⟨S2400, .f32⟩
  | 114 => ⟨S2400x1, .f32⟩
  | 115 => ⟨S2400, .f32⟩
  | 116 => ⟨S2400, .f32⟩
  | 117 => ⟨S2400, .f32⟩
  | 118 => ⟨S9600x2, .f32⟩
  | 119 => ⟨S9600x1x2, .f32⟩
  | 120 => ⟨S2400x2, .f32⟩
  | 121 => ⟨S1x2400x2, .f32⟩
  | 122 => ⟨S9600x2400x2, .f32⟩
  | 123 => ⟨S9600x2400x2, .f32⟩
  | 124 => ⟨S9600x2400x2, .f32⟩
  | 125 => ⟨S9600x2, .f32⟩
  | 126 => ⟨S9600x1x2, .f32⟩
  | 127 => ⟨S2400x2, .f32⟩
  | _ => ⟨S16x600x92, .f32⟩

abbrev hbmTy0_1 (i : Nat) : BufTy := match i % 128 with
  | 0 => ⟨S1x2400x2, .f32⟩
  | 1 => ⟨S9600x2400x2, .f32⟩
  | 2 => ⟨S9600x2400x2, .f32⟩
  | 3 => ⟨S9600x2400x2, .f32⟩
  | 4 => ⟨S9600x2400x2, .f32⟩
  | 5 => ⟨S_, .f32⟩
  | 6 => ⟨S_, .f32⟩
  | 7 => ⟨S9600x2400x2, .f32⟩
  | 8 => ⟨S9600x2400x2, .f32⟩
  | 9 => ⟨S9600x2400x1, .f32⟩
  | 10 => ⟨S9600x2400, .f32⟩
  | 11 => ⟨S9600x2400x1, .f32⟩
  | 12 => ⟨S9600x2400, .f32⟩
  | 13 => ⟨S9600x2400, .f32⟩
  | 14 => ⟨S9600x1, .f32⟩
  | 15 => ⟨S1x2400, .f32⟩
  | 16 => ⟨S9600x2400, .f32⟩
  | 17 => ⟨S9600x2400, .f32⟩
  | 18 => ⟨S9600x2400, .f32⟩
  | 19 => ⟨S9600x2400, .f32⟩
  | 20 => ⟨S9600x2400, .f32⟩
  | 21 => ⟨S9600x2, .f32⟩
  | 22 => ⟨S9600x1x2, .f32⟩
  | 23 => ⟨S2400x2, .f32⟩
  | 24 => ⟨S1x2400x2, .f32⟩
  | 25 => ⟨S9600x2400x2, .f32⟩
  | 26 => ⟨S9600x2400x2, .f32⟩
  | 27 => ⟨S9600x2400x2, .f32⟩
  | 28 => ⟨S9600x2, .f32⟩
  | 29 => ⟨S9600x1x2, .f32⟩
  | 30 => ⟨S2400x2, .f32⟩
  | 31 => ⟨S1x2400x2, .f32⟩
  | 32 => ⟨S9600x2400x2, .f32⟩
  | 33 => ⟨S9600x2400x2, .f32⟩
  | 34 => ⟨S9600x2400x2, .f32⟩
  | 35 => ⟨S9600x2400x2, .f32⟩
  | 36 => ⟨S_, .f32⟩
  | 37 => ⟨S_, .f32⟩
  | 38 => ⟨S9600x2400x2, .f32⟩
  | 39 => ⟨S9600x2400x2, .f32⟩
  | 40 => ⟨S9600x2400x1, .f32⟩
  | 41 => ⟨S9600x2400, .f32⟩
  | 42 => ⟨S9600x2400x1, .f32⟩
  | 43 => ⟨S9600x2400, .f32⟩
  | 44 => ⟨S9600x2400, .f32⟩
  | 45 => ⟨S9600x2400, .f32⟩
  | 46 => ⟨S9600x2400, .f32⟩
  | 47 => ⟨S9600x2400, .f32⟩
  | 48 => ⟨S9600x2400, .f32⟩
  | 49 => ⟨S_, .f32⟩
  | 50 => ⟨S9600x2400, .f32⟩
  | 51 => ⟨S9600x2400, .f32⟩
  | 52 => ⟨S_, .f32⟩
  | 53 => ⟨S9600x2400, .f32⟩
  | 54 => ⟨S9600x2400, .f32⟩
  | 55 => ⟨S9600x2400, .f32⟩
  | 56 => ⟨S_, .f32⟩
  | 57 => ⟨S9600x2400, .f32⟩
  | 58 => ⟨S9600x2400, .f32⟩
  | 59 => ⟨S9600x2400, .f32⟩
  | 60 => ⟨S16x600x2400, .f32⟩
  | _ => ⟨S16x600x92, .f32⟩

abbrev hbmTy (i : Nat) : BufTy := match i / 128 with
  | 0 => hbmTy0_0 i
  | 1 => hbmTy0_1 i
  | _ => ⟨S16x600x92, .f32⟩

abbrev bufTy : (tb : Table) → Fin (tcTables nBuf tb) → BufTy
  | .hbm, ⟨i, _⟩ => hbmTy i
  | _, _ => ⟨S16x600x92, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c : Ref sig .tc := ⟨.hbm, 20, rfl⟩
abbrev main_v13 : Ref sig .tc := ⟨.hbm, 21, rfl⟩
abbrev main_v14 : Ref sig .tc := ⟨.hbm, 22, rfl⟩
abbrev main_c_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_3 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_cst_4 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_cst_5 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_cst_6 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_cst_7 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_cst_8 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_cst_9 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_cst_10 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_cst_11 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_v105 : Ref sig .tc := ⟨.hbm, 123, rfl⟩
abbrev main_v106 : Ref sig .tc := ⟨.hbm, 124, rfl⟩
abbrev main_v107 : Ref sig .tc := ⟨.hbm, 125, rfl⟩
abbrev main_v108 : Ref sig .tc := ⟨.hbm, 126, rfl⟩
abbrev main_v109 : Ref sig .tc := ⟨.hbm, 127, rfl⟩
abbrev main_v110 : Ref sig .tc := ⟨.hbm, 128, rfl⟩
abbrev main_v111 : Ref sig .tc := ⟨.hbm, 129, rfl⟩
abbrev main_v112 : Ref sig .tc := ⟨.hbm, 130, rfl⟩
abbrev main_v113 : Ref sig .tc := ⟨.hbm, 131, rfl⟩
abbrev main_v114 : Ref sig .tc := ⟨.hbm, 132, rfl⟩
abbrev main_cst_12 : Ref sig .tc := ⟨.hbm, 133, rfl⟩
abbrev main_call0_v0 : Ref sig .tc := ⟨.hbm, 134, rfl⟩
abbrev main_call0_v1 : Ref sig .tc := ⟨.hbm, 135, rfl⟩
abbrev main_v115 : Ref sig .tc := ⟨.hbm, 136, rfl⟩
abbrev main_v116 : Ref sig .tc := ⟨.hbm, 137, rfl⟩
abbrev main_v117 : Ref sig .tc := ⟨.hbm, 138, rfl⟩
abbrev main_v118 : Ref sig .tc := ⟨.hbm, 139, rfl⟩
abbrev main_v119 : Ref sig .tc := ⟨.hbm, 140, rfl⟩
abbrev main_v120 : Ref sig .tc := ⟨.hbm, 141, rfl⟩
abbrev main_v121 : Ref sig .tc := ⟨.hbm, 142, rfl⟩
abbrev main_v122 : Ref sig .tc := ⟨.hbm, 143, rfl⟩
abbrev main_v123 : Ref sig .tc := ⟨.hbm, 144, rfl⟩
abbrev main_v124 : Ref sig .tc := ⟨.hbm, 145, rfl⟩
abbrev main_v125 : Ref sig .tc := ⟨.hbm, 146, rfl⟩
abbrev main_v126 : Ref sig .tc := ⟨.hbm, 147, rfl⟩
abbrev main_v127 : Ref sig .tc := ⟨.hbm, 148, rfl⟩
abbrev main_v128 : Ref sig .tc := ⟨.hbm, 149, rfl⟩
abbrev main_v129 : Ref sig .tc := ⟨.hbm, 150, rfl⟩
abbrev main_v130 : Ref sig .tc := ⟨.hbm, 151, rfl⟩
abbrev main_v131 : Ref sig .tc := ⟨.hbm, 152, rfl⟩
abbrev main_v132 : Ref sig .tc := ⟨.hbm, 153, rfl⟩
abbrev main_v133 : Ref sig .tc := ⟨.hbm, 154, rfl⟩
abbrev main_v134 : Ref sig .tc := ⟨.hbm, 155, rfl⟩
abbrev main_v135 : Ref sig .tc := ⟨.hbm, 156, rfl⟩
abbrev main_v136 : Ref sig .tc := ⟨.hbm, 157, rfl⟩
abbrev main_v137 : Ref sig .tc := ⟨.hbm, 158, rfl⟩
abbrev main_v138 : Ref sig .tc := ⟨.hbm, 159, rfl⟩
abbrev main_v139 : Ref sig .tc := ⟨.hbm, 160, rfl⟩
abbrev main_v140 : Ref sig .tc := ⟨.hbm, 161, rfl⟩
abbrev main_v141 : Ref sig .tc := ⟨.hbm, 162, rfl⟩
abbrev main_v142 : Ref sig .tc := ⟨.hbm, 163, rfl⟩
abbrev main_cst_13 : Ref sig .tc := ⟨.hbm, 164, rfl⟩
abbrev main_call1_v0 : Ref sig .tc := ⟨.hbm, 165, rfl⟩
abbrev main_call1_v1 : Ref sig .tc := ⟨.hbm, 166, rfl⟩
abbrev main_v143 : Ref sig .tc := ⟨.hbm, 167, rfl⟩
abbrev main_v144 : Ref sig .tc := ⟨.hbm, 168, rfl⟩
abbrev main_v145 : Ref sig .tc := ⟨.hbm, 169, rfl⟩
abbrev main_v146 : Ref sig .tc := ⟨.hbm, 170, rfl⟩
abbrev main_v147 : Ref sig .tc := ⟨.hbm, 171, rfl⟩
abbrev main_v148 : Ref sig .tc := ⟨.hbm, 172, rfl⟩
abbrev main_v149 : Ref sig .tc := ⟨.hbm, 173, rfl⟩
abbrev main_v150 : Ref sig .tc := ⟨.hbm, 174, rfl⟩
abbrev main_v151 : Ref sig .tc := ⟨.hbm, 175, rfl⟩
abbrev main_v152 : Ref sig .tc := ⟨.hbm, 176, rfl⟩
abbrev main_cst_14 : Ref sig .tc := ⟨.hbm, 177, rfl⟩
abbrev main_v153 : Ref sig .tc := ⟨.hbm, 178, rfl⟩
abbrev main_v154 : Ref sig .tc := ⟨.hbm, 179, rfl⟩
abbrev main_cst_15 : Ref sig .tc := ⟨.hbm, 180, rfl⟩
abbrev main_v155 : Ref sig .tc := ⟨.hbm, 181, rfl⟩
abbrev main_v156 : Ref sig .tc := ⟨.hbm, 182, rfl⟩
abbrev main_v157 : Ref sig .tc := ⟨.hbm, 183, rfl⟩
abbrev main_cst_16 : Ref sig .tc := ⟨.hbm, 184, rfl⟩
abbrev main_v158 : Ref sig .tc := ⟨.hbm, 185, rfl⟩
abbrev main_v159 : Ref sig .tc := ⟨.hbm, 186, rfl⟩
abbrev main_v160 : Ref sig .tc := ⟨.hbm, 187, rfl⟩
abbrev main_v161 : Ref sig .tc := ⟨.hbm, 188, rfl⟩

abbrev nD : Nat := 1
abbrev τ : Topo := Topo.v7x

variable {F : FTy → Type} [FloatOps F]

class Facts₀ : Prop where
  shapeCasts_S16x600x92_S9600x92 : S16x600x92.ShapeCasts S9600x92
  reducesTo_S9600x92_S9600_d1 : S9600x92.ReducesTo [1] S9600
  h_S_ : 0 < S_.numel
  bcast_S_S9600 : S_.BroadcastsInDim S9600 (![] : Fin 0 → Fin S9600.rank)
  bcast_S9600_S9600x1_0 : S9600.BroadcastsInDim S9600x1 (![0] : Fin 1 → Fin S9600x1.rank)
  bcast_S9600x1_S9600x92_0_1 : S9600x1.BroadcastsInDim S9600x92 (![0, 1] : Fin 2 → Fin S9600x92.rank)
  shapeCasts_S16x600x4_S9600x4 : S16x600x4.ShapeCasts S9600x4
  bcast_S_S2400 : S_.BroadcastsInDim S2400 (![] : Fin 0 → Fin S2400.rank)
  bcast_S2400_S2400x1_0 : S2400.BroadcastsInDim S2400x1 (![0] : Fin 1 → Fin S2400x1.rank)
  bcast_S9600x4_S9600x1x4_0_2 : S9600x4.BroadcastsInDim S9600x1x4 (![0, 2] : Fin 2 → Fin S9600x1x4.rank)
  bcast_S2400x4_S1x2400x4_1_2 : S2400x4.BroadcastsInDim S1x2400x4 (![1, 2] : Fin 2 → Fin S1x2400x4.rank)
  bcast_S9600x1x4_S9600x2400x4_0_1_2 : S9600x1x4.BroadcastsInDim S9600x2400x4 (![0, 1, 2] : Fin 3 → Fin S9600x2400x4.rank)
  bcast_S1x2400x4_S9600x2400x4_0_1_2 : S1x2400x4.BroadcastsInDim S9600x2400x4 (![0, 1, 2] : Fin 3 → Fin S9600x2400x4.rank)
  reducesTo_S9600x2400x4_S9600x2400_d2 : S9600x2400x4.ReducesTo [2] S9600x2400
  slices_S9600x4_S9600x1_0_0 : S9600x4.Slices ![0, 0] S9600x1
  shapeCasts_S9600x1_S9600 : S9600x1.ShapeCasts S9600
  slices_S9600x4_S9600x1_0_1 : S9600x4.Slices ![0, 1] S9600x1
  slices_S9600x4_S9600x1_0_2 : S9600x4.Slices ![0, 2] S9600x1
  slices_S9600x4_S9600x1_0_3 : S9600x4.Slices ![0, 3] S9600x1
  concatenates_S9600x1_S9600x1_S9600x1_S9600x1_S9600x4_d1 : Shape.Concatenates [S9600x1, S9600x1, S9600x1, S9600x1] S9600x4 1
  slices_S2400x4_S2400x1_0_0 : S2400x4.Slices ![0, 0] S2400x1
  shapeCasts_S2400x1_S2400 : S2400x1.ShapeCasts S2400
  slices_S2400x4_S2400x1_0_1 : S2400x4.Slices ![0, 1] S2400x1
  slices_S2400x4_S2400x1_0_2 : S2400x4.Slices ![0, 2] S2400x1
  slices_S2400x4_S2400x1_0_3 : S2400x4.Slices ![0, 3] S2400x1
  concatenates_S2400x1_S2400x1_S2400x1_S2400x1_S2400x4_d1 : Shape.Concatenates [S2400x1, S2400x1, S2400x1, S2400x1] S2400x4 1
  slices_S9600x4_S9600x2_0_0 : S9600x4.Slices ![0, 0] S9600x2
  bcast_S9600x2_S9600x1x2_0_2 : S9600x2.BroadcastsInDim S9600x1x2 (![0, 2] : Fin 2 → Fin S9600x1x2.rank)
  slices_S2400x4_S2400x2_0_0 : S2400x4.Slices ![0, 0] S2400x2
  bcast_S2400x2_S1x2400x2_1_2 : S2400x2.BroadcastsInDim S1x2400x2 (![1, 2] : Fin 2 → Fin S1x2400x2.rank)
  bcast_S9600x1x2_S9600x2400x2_0_1_2 : S9600x1x2.BroadcastsInDim S9600x2400x2 (![0, 1, 2] : Fin 3 → Fin S9600x2400x2.rank)
  bcast_S1x2400x2_S9600x2400x2_0_1_2 : S1x2400x2.BroadcastsInDim S9600x2400x2 (![0, 1, 2] : Fin 3 → Fin S9600x2400x2.rank)
  slices_S9600x4_S9600x2_0_2 : S9600x4.Slices ![0, 2] S9600x2
  slices_S2400x4_S2400x2_0_2 : S2400x4.Slices ![0, 2] S2400x2
  bcast_S_S9600x2400x2 : S_.BroadcastsInDim S9600x2400x2 (![] : Fin 0 → Fin S9600x2400x2.rank)
  slices_S9600x2400x2_S9600x2400x1_0_0_0 : S9600x2400x2.Slices ![0, 0, 0] S9600x2400x1
  shapeCasts_S9600x2400x1_S9600x2400 : S9600x2400x1.ShapeCasts S9600x2400
  slices_S9600x2400x2_S9600x2400x1_0_0_1 : S9600x2400x2.Slices ![0, 0, 1] S9600x2400x1
  bcast_S2400_S1x2400_1 : S2400.BroadcastsInDim S1x2400 (![1] : Fin 1 → Fin S1x2400.rank)
  bcast_S9600x1_S9600x2400_0_1 : S9600x1.BroadcastsInDim S9600x2400 (![0, 1] : Fin 2 → Fin S9600x2400.rank)
  bcast_S1x2400_S9600x2400_0_1 : S1x2400.BroadcastsInDim S9600x2400 (![0, 1] : Fin 2 → Fin S9600x2400.rank)
  bcast_S_S9600x2400 : S_.BroadcastsInDim S9600x2400 (![] : Fin 0 → Fin S9600x2400.rank)
  shapeCasts_S9600x2400_S16x600x2400 : S9600x2400.ShapeCasts S16x600x2400
  gather_S9600x92_S2400x1_S9600x2400_0_1_n_n_1_1_96001_wf : GatherDims.WF S9600x92 S2400x1 S9600x2400 [0] [1] [] [1] [] 1 ![9600, 1]

variable [Facts₀]

def gather_S9600x92_S2400x1_S9600x2400_0_1_n_n_1_1_96001 : GatherDims S9600x92 S2400x1 S9600x2400 where
  offsetDims := [0]
  collapsedSliceDims := [1]
  operandBatchingDims := []
  startIndicesBatchingDims := []
  startIndexMap := [1]
  indexVectorDim := 1
  sliceSizes := ![9600, 1]
  wf := gather_S9600x92_S2400x1_S9600x2400_0_1_n_n_1_1_96001_wf

class Facts : Prop extends Facts₀ where

variable [Facts]
-- ==== Proof.Spec.lean ====
/-
  The matching cost, as one function of the inputs.

  For a prediction row `n` (logits `x : Fin 92 → EReal`, box `a = (cx, cy, w, h)`) and a target `m` (box `t`, class
  `l`) the cost is

      ‖a − t‖₁  −  softmax(x)ₗ  −  GIoU(corners a, corners t)

  where `corners (cx, cy, w, h) = (cx − w/2, cy − h/2, cx + w/2, cy + h/2)`, and for corner boxes `A`, `T`:
  `I` is the area of the intersection rectangle (each side clipped at zero), `U = area A + area T − I`, `E` the area of
  the smallest enclosing rectangle, and `GIoU = I / U − (E − U) / E`.  Everything is over the extended reals, with the
  ideal division `Ideal.div`; the constants are kept as the words the programs carry.

  `costAt` is that scalar function; `cost2` lays it out over the `[9600, 2400]` matrix of pairs.
-/
import Idealize.ShloMosaic.PureOps.Ideal
import Idealize.ShloMosaic.PureOps.Ideal.Laws
import Idealize.ShloMosaic.Lib.ValueIdx

noncomputable section

open scoped BigOperators

namespace Cert.Matcher

open Idealize.ShloMosaic Idealize.ShloMosaic.ValueIdx

/-- `−∞`, `1/2` and `0` as the f32 words both programs carry. -/
abbrev negInf : EReal := Ideal.ofBits .f32 0xFF800000#32
abbrev half : EReal := Ideal.ofBits .f32 0x3F000000#32
abbrev zero : EReal := Ideal.ofBits .f32 0x00000000#32

/-! ## The class probability -/

/-- A row's maximum, taken from `−∞` (and once more against `−∞`, as both programs do). -/
def rowMax (x : Fin 92 → EReal) : EReal := max negInf ((Finset.univ : Finset (Fin 92)).fold max negInf x)
/-- The shifted exponentials of a row. -/
def expRow (x : Fin 92 → EReal) (c : Fin 92) : EReal := Ideal.exp (x c - rowMax x)
/-- The softmax of a row at class `c`. -/
def prob (x : Fin 92 → EReal) (c : Fin 92) : EReal := Ideal.div (expRow x c) (∑ k : Fin 92, expRow x k)

/-! ## The boxes -/

/-- The low and the high corner along one axis, from centre and extent. -/
def lo (c w : EReal) : EReal := c - half * w
def hi (c w : EReal) : EReal := c + half * w
/-- A centre-extent box `(cx, cy, w, h)` as corners `(x₀, y₀, x₁, y₁)`. -/
def corners (b : Fin 4 → EReal) : Fin 4 → EReal := fun k =>
  match k with
  | 0 => lo (b 0) (b 2)
  | 1 => lo (b 1) (b 3)
  | 2 => hi (b 0) (b 2)
  | 3 => hi (b 1) (b 3)
/-- The area of a corner box. -/
def areaC (A : Fin 4 → EReal) : EReal := (A 2 - A 0) * (A 3 - A 1)
/-- The area of the intersection of two corner boxes: each side clipped at zero. -/
def interC (A T : Fin 4 → EReal) : EReal :=
  max (min (A 2) (T 2) - max (A 0) (T 0)) zero * max (min (A 3) (T 3) - max (A 1) (T 1)) zero
/-- The area of the union. -/
def unionC (A T : Fin 4 → EReal) : EReal := (areaC A + areaC T) - interC A T
/-- The area of the smallest enclosing rectangle. -/
def encloseC (A T : Fin 4 → EReal) : EReal :=
  max (max (A 2) (T 2) - min (A 0) (T 0)) zero * max (max (A 3) (T 3) - min (A 1) (T 1)) zero
/-- The generalized intersection over union of two corner boxes. -/
def giouC (A T : Fin 4 → EReal) : EReal :=
  Ideal.div (interC A T) (unionC A T) - Ideal.div (encloseC A T - unionC A T) (encloseC A T)
/-- … and of two centre-extent boxes. -/
def giou (a t : Fin 4 → EReal) : EReal := giouC (corners a) (corners t)
/-- The absolute value as the programs take it. -/
def abs' (x : EReal) : EReal := max x (-x)
/-- The L1 distance of two centre-extent boxes, summed in coordinate order. -/
def l1 (a t : Fin 4 → EReal) : EReal :=
  ((abs' (a 0 - t 0) + abs' (a 1 - t 1)) + abs' (a 2 - t 2)) + abs' (a 3 - t 3)

/-! ## The cost -/

/-- The cost of matching a prediction (logits `x`, box `a`) with a target (box `t`, class `l`). -/
def costAt (x : Fin 92 → EReal) (a t : Fin 4 → EReal) (l : Fin 92) : EReal :=
  (l1 a t + (zero - prob x l)) + (zero - giou a t)

/-- The cost matrix over all pairs: row `n` of the flattened predictions against target `m`. -/
def cost2 (X : (⟨2, ![9600, 92]⟩ : Shape).Idx → EReal) (B : (⟨2, ![9600, 4]⟩ : Shape).Idx → EReal)
    (T : (⟨2, ![2400, 4]⟩ : Shape).Idx → EReal) (lab : Fin 2400 → Fin 92) :
    (⟨2, ![9600, 2400]⟩ : Shape).Idx → EReal :=
  fun i => costAt (fun c => X (ix2 (i 0) c)) (fun k => B (ix2 (i 0) k)) (fun k => T (ix2 (i 1) k)) (lab (i 1))

end Cert.Matcher

end
-- ==== Proof.Labels.lean ====
/-
  The label range, read off the precondition.

  The precondition's last conjunct says every label word `w`, read signed, satisfies `0 ≤ w < 92`.  So each label is
  the word of a class `labOf w q : Fin 92`.
-/
import proofs.«408570_j72155450572906_2_alg».proof.Pre_finite_inputs
import proofs.«408570_j72155450572906_2_alg».proof.Proof.Gen.Pre_finite_inputs
import Idealize.ShloMosaic.Lib.ValueIdx
import Idealize.ShloMosaic.Lib.ReduceAll
import Idealize.ShloMosaic.Lib.Affine
import Idealize.ShloMosaic.PureOps.Ideal

noncomputable section

namespace Cert.Matcher

open Idealize.ShloMosaic Idealize.ShloMosaic.ValueIdx

/-- The class a label word denotes (its value, reduced into range: under the precondition the reduction does nothing). -/
def labOf (w : IVec (⟨1, ![2400]⟩ : Shape) 32) (q : Fin 2400) : Fin 92 :=
  ⟨(w (ix1 q)).toNat % 92, Nat.mod_lt _ (by decide)⟩

/-- A word that is signed-nonnegative and signed-below 92 has a value below 92. -/
theorem toNat_lt_of_cmp (a : BitVec 32) (h1 : IntOp.cmpi .sge a 0#32 = 1#1) (h2 : IntOp.cmpi .slt a 92#32 = 1#1) :
    a.toNat < 92 := by
  unfold IntOp.cmpi at h1 h2
  dsimp only at h1 h2
  have e1 : (0#32).sle a = true := by cases hb : (0#32).sle a <;> simp_all
  have e2 : a.slt 92#32 = true := by cases hb : a.slt 92#32 <;> simp_all
  simp only [BitVec.sle, BitVec.slt, decide_eq_true_eq] at e1 e2
  have z0 : (0#32 : BitVec 32).toInt = 0 := by decide
  have z92 : (92#32 : BitVec 32).toInt = 92 := by decide
  rw [z0] at e1
  rw [z92] at e2
  rw [BitVec.toInt_eq_toNat_cond] at e1 e2
  split at e1 <;> omega

instance : Subsingleton (⟨0, ![]⟩ : Shape).Idx := ⟨fun a b => funext fun d => d.elim0⟩

/-- Under the precondition every label word is the word of its class. -/
theorem label_eq (a0 : FVec Ideal Cert.Pre_finite_inputs.S16x600x92 .f32) (a1 : FVec Ideal Cert.Pre_finite_inputs.S16x600x4 .f32)
    (a2 : FVec Ideal Cert.Pre_finite_inputs.S2400x4 .f32) (w : IVec Cert.Pre_finite_inputs.S2400 32)
    (h : Cert.Pre_finite_inputs.fn (F := Ideal) a0 a1 a2 w = fun _ => 1#1) (q : Fin 2400) :
    w (ix1 q) = BitVec.ofNat 32 (labOf w q).val := by
  have h0 := congrFun h ix0
  dsimp only [Cert.Pre_finite_inputs.fn, Cert.Pre_finite_inputs.fn_part1] at h0
  have h1 := (IntOp.andi_eq_one.mp h0).2
  have h2 := Host.reduce_andi_all _ _ _ _ ix0 h1 (ix1 q)
  obtain ⟨h3, h4⟩ := IntOp.andi_eq_one.mp h2
  have h3' : IntOp.cmpi .sge (w (ix1 q)) 0#32 = 1#1 := h3
  have h4' : IntOp.cmpi .slt (w (ix1 q)) 92#32 = 1#1 := h4
  have hlt := toNat_lt_of_cmp _ h3' h4'
  show _ = BitVec.ofNat 32 ((w (ix1 q)).toNat % 92)
  rw [Nat.mod_eq_of_lt hlt, BitVec.ofNat_toNat, BitVec.setWidth_eq]

end Cert.Matcher

end
-- ==== Proof.KHost.lean ====
/-
  The arrays the kernel region finds: what the host lines before it have written.

  The logits and the prediction boxes flattened to `[9600, ·]`, the target boxes transposed to `[4, 2400]`, and the
  one-hot class matrix `[92, 2400]`: entry `(c, q)` is `1` when `c` is target `q`'s class and `0` otherwise.
-/
import proofs.«408570_j72155450572906_2_alg».proof.Proof.Gen.KernelIdeal.Frame
import proofs.«408570_j72155450572906_2_alg».proof.Proof.Spec
import Idealize.ShloMosaic.Lib.ValueIdx
import Idealize.ShloMosaic.Lib.Pipeline.Value
import Idealize.ShloMosaic.Lib.StableHlo.Run
import Idealize.ShloMosaic.Lib.StableHlo.Predicate

noncomputable section

namespace Cert.KernelIdeal.HostValue

open Idealize.ShloMosaic Idealize.ShloMosaic.TcCoe Idealize.SL.Sem Idealize.ShloMosaic.StableHlo
open Idealize.ShloMosaic.ValueIdx Cert.KernelIdeal Cert.KernelIdeal.Gen Cert.Matcher

variable (m : (ℓ : Loc nD τ sig) → Buf (Elt Ideal) ℓ)

/-- The flattened logits. -/
theorem V_v0 (c : Dev nD) :
    (V m c main_v0 : S9600x92.Idx → EReal)
      = shapeCast S9600x92 (m ((c : Thread nD τ).loc main_arg0)) shapeCasts_S16x600x92_S9600x92 := by
  show StableHlo.after hostOps0 (fun b => m (c, b)) (Proc.devRef .tc main_v0) = _
  after_results
  rfl

/-- The flattened prediction boxes. -/
theorem V_v1 (c : Dev nD) :
    (V m c main_v1 : S9600x4.Idx → EReal)
      = shapeCast S9600x4 (m ((c : Thread nD τ).loc main_arg1)) shapeCasts_S16x600x4_S9600x4 := by
  show StableHlo.after hostOps0 (fun b => m (c, b)) (Proc.devRef .tc main_v1) = _
  after_results
  rfl

/-- The transposed target boxes. -/
theorem V_v2 (c : Dev nD) :
    (V m c main_v2 : S4x2400.Idx → EReal)
      = transpose S4x2400 [1, 0] (m ((c : Thread nD τ).loc main_arg2)) transposes_S2400x4_S4x2400_1_0 := by
  show StableHlo.after hostOps0 (fun b => m (c, b)) (Proc.devRef .tc main_v2) = _
  after_results

/-- The one-hot class matrix, as the host lines spell it: the class number down the rows compared with the label along
    the columns, the bit converted to a float. -/
theorem V_v9 (c : Dev nD) :
    (V m c main_v9 : S92x2400.Idx → EReal)
      = uitofp (F := Ideal) .bf16 (cmpi .eq
          (broadcastInDim S92x2400 ![0, 1] bcast_S92x1_S92x2400_0_1 (broadcastInDim S92x1 ![0] bcast_S92_S92x1_0 (iotaInDim S92 32 0)))
          (broadcastInDim S92x2400 ![0, 1] bcast_S1x2400_S92x2400_0_1
            (broadcastInDim S1x2400 ![1] bcast_S2400_S1x2400_1 (m ((c : Thread nD τ).loc main_arg3))))) := by
  show StableHlo.after hostOps0 (fun b => m (c, b)) (Proc.devRef .tc main_v9) = _
  after_results

/-- The transposed target boxes at `(k, q)`: entry `k` of target `q`'s box. -/
theorem tgtT_apply (c : Dev nD) (k : Fin 4) (q : Fin 2400) :
    (V m c main_v2 : S4x2400.Idx → EReal) (ix2 k q) = m ((c : Thread nD τ).loc main_arg2) (ix2 q k) := by
  rw [V_v2]
  exact transpose_apply _ _ _ (ix2 k q) (ix2 q k) (fun b => match b with | ⟨0, _⟩ => rfl | ⟨1, _⟩ => rfl)

/-- Two class numbers below 92 are equal as 32-bit words exactly when they are equal. -/
theorem ofNat_eq_iff (a b : Fin 92) : BitVec.ofNat 32 a.val = BitVec.ofNat 32 b.val ↔ a = b := by
  constructor
  · intro h
    have := congrArg BitVec.toNat h
    simp only [BitVec.toNat_ofNat] at this
    have ha := a.isLt; have hb := b.isLt
    exact Fin.ext (by omega)
  · rintro rfl; rfl

/-- The one-hot class matrix at `(cl, q)`: `1` when `cl` is target `q`'s class, else `0` — given that the label
    words are the words of the classes `lab`. -/
theorem onehot_apply (c : Dev nD) (lab : Fin 2400 → Fin 92)
    (hlab : ∀ q : Fin 2400, m ((c : Thread nD τ).loc main_arg3) (ix1 q) = BitVec.ofNat 32 (lab q).val)
    (cl : Fin 92) (q : Fin 2400) :
    (V m c main_v9 : S92x2400.Idx → EReal) (ix2 cl q) = if cl = lab q then (1 : EReal) else 0 := by
  rw [V_v9]
  have e : (ix2 cl q : S92x2400.Idx) = Predicate.ij cl q := by
    funext b; match b with | ⟨0, _⟩ => rfl | ⟨1, _⟩ => rfl
  rw [e]
  show FloatOps.uitofp (F := Ideal) .bf16 (IntOp.cmpi .eq
      (broadcastInDim S92x2400 ![0, 1] bcast_S92x1_S92x2400_0_1 (broadcastInDim S92x1 ![0] bcast_S92_S92x1_0 (iotaInDim S92 32 0)) (Predicate.ij cl q))
      (broadcastInDim S92x2400 ![0, 1] bcast_S1x2400_S92x2400_0_1
        (broadcastInDim S1x2400 ![1] bcast_S2400_S1x2400_1 (m ((c : Thread nD τ).loc main_arg3))) (Predicate.ij cl q))) = _
  rw [Predicate.bcast_rows, Predicate.bcast_cols]
  have e2 : (Shape.Idx.ofFin q : (⟨1, ![2400]⟩ : Shape).Idx) = ix1 q := by
    funext b; match b with | ⟨0, _⟩ => rfl
  rw [Predicate.iota_apply, e2, hlab]
  by_cases h : cl = lab q
  · rw [if_pos h, (Predicate.cmpi_eq_iff).mpr ((ofNat_eq_iff _ _).mpr h)]
    show (((1#1 : BitVec 1).toNat : ℝ) : EReal) = 1
    simp
  · rw [if_neg h]
    have h0 : IntOp.cmpi .eq (BitVec.ofNat 32 cl.val) (BitVec.ofNat 32 (lab q).val) = 0#1 :=
      eq_zero_of_ne_one (fun h1 => h ((ofNat_eq_iff _ _).mp (Predicate.cmpi_eq_iff.mp h1)))
    rw [h0]
    show (((0#1 : BitVec 1).toNat : ℝ) : EReal) = 0
    simp

end Cert.KernelIdeal.HostValue

end
-- ==== Proof.KSoftmax.lean ====
/-
  The kernel's class term on one block of rows: the softmax of a block of logits, row by row, and its product with the
  one-hot class matrix.
-/
import proofs.«408570_j72155450572906_2_alg».proof.Proof.Gen.KernelIdeal.Skeleton
import proofs.«408570_j72155450572906_2_alg».proof.Proof.Spec
import Idealize.ShloMosaic.Lib.ValueIdx
import Idealize.ShloMosaic.Lib.Pipeline.Value
import Idealize.ShloMosaic.PureOps.Ideal.Laws

noncomputable section

open scoped BigOperators

namespace Cert.KernelIdeal.Body

open Idealize.ShloMosaic Idealize.ShloMosaic.ValueIdx Cert.KernelIdeal Cert.KernelIdeal.Gen Cert.Matcher

/-! ## The softmax of a block, row by row -/

/-- A vector cast to a column reads, at `(i, u)`, the vector at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column broadcast along its rows reads, at `(p, c)`, the column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A per-row value kept as a column and broadcast back over the classes reads, at `(p, c)`, the value of row `p`. -/
theorem keepdims_apply (v : FVec Ideal S480 .f32) (p : Fin 480) (c : Fin 92) :
    broadcastTo S480x92 (shapeCast S480x1 v shapeCasts_S480_S480x1) broadcasts_S480x1_S480x92 (ix2 p c) = v (ix1 p) := by
  rw [broadcastTo_a1_ab_apply, shapeCast_a_a1_apply]

/-- The block index over row `p` with class `k` on the reduced axis. -/
theorem lift_row (p : Fin 480) (k : Fin 92) : reduces_S480x92_S480.lift (ix1 p) k = ix2 p k := by
  funext a
  apply Fin.ext
  match a with
  | ⟨0, _⟩ => rfl
  | ⟨1, _⟩ => rfl

/-- The body's row maximum: the fold of `max` over the row from `−∞`, once more against `−∞`. -/
theorem rowMax_apply (x : FVec Ideal S480x92 .f32) (p : Fin 480) :
    maximumf (broadcast S480 (Scalar.ofBits (F := Ideal) .f32 0xFF800000#32))
        (multiReduction (F := Ideal) .maximumf [1] S480 x 0xFF800000#32 reduces_S480x92_S480 (.inl rfl) rfl) (ix1 p)
      = rowMax (fun c' => x (ix2 p c')) := by
  rw [maximumf_apply, broadcast_apply]
  refine (congrArg (max _) (Ideal.multiReduction_maximumf_single x _ reduces_S480x92_S480 _ _ (ix1 p))).trans ?_
  have hrow : (x ∘ reduces_S480x92_S480.lift (ix1 p)) = fun c' => x (ix2 p c') :=
    funext fun k => congrArg x (lift_row p k)
  rw [hrow]
  rfl

/-- The body's row sum: the sum over the row's classes. -/
theorem rowSum_apply (e : FVec Ideal S480x92 .f32) (p : Fin 480) :
    multiReduction (F := Ideal) .add [1] S480 e 0x00000000#32 reduces_S480x92_S480 (.inl rfl) rfl (ix1 p)
      = ∑ k : Fin 92, e (ix2 p k) := by
  refine (Ideal.multiReduction_add_single e _ reduces_S480x92_S480 _ _ (ix1 p)).trans ?_
  exact Finset.sum_congr rfl fun k _ => congrArg e (lift_row p k)

/-- The body's softmax of a block of logits, at row `p` and class `c`: the softmax of that row. -/
theorem pay2_apply (x0 : Vec Ideal S480x92 .f32) (p : Fin 480) (c : Fin 92) :
    k0_pay2 (F := Ideal) x0 (ix2 p c) = prob (fun c' => x0 (ix2 p c')) c := by
  unfold k0_pay2
  simp only [shapeCast_self]
  -- the shifted exponential at any class of the row
  have hexp : ∀ k : Fin 92,
      exp (subf (x0 : FVec Ideal S480x92 .f32)
          (broadcastTo S480x92 (shapeCast S480x1
            (maximumf (broadcast S480 (Scalar.ofBits (F := Ideal) .f32 0xFF800000#32))
              (multiReduction (F := Ideal) .maximumf [1] S480 (x0 : FVec Ideal S480x92 .f32) 0xFF800000#32 reduces_S480x92_S480 (.inl rfl) rfl))
            shapeCasts_S480_S480x1) broadcasts_S480x1_S480x92)) (ix2 p k)
        = expRow (fun c' => x0 (ix2 p c')) k := by
    intro k
    show Ideal.exp (x0 (ix2 p k) - _) = _
    rw [keepdims_apply, rowMax_apply]
    rfl
  rw [divf_apply, keepdims_apply, rowSum_apply, hexp c, Finset.sum_congr rfl fun k _ => hexp k]
  rfl

/-! ## The product with the one-hot class matrix -/

/-- The left operand's row coordinate is the result's row. -/
theorem lhs_classDot_0 (i : S480x2400.Idx) (q : dot_S480x92_S92x2400_S480x2400_1_0_0_1_n_n.contr.Idx) :
    (dot_S480x92_S92x2400_S480x2400_1_0_0_1_n_n.lhsIdx i q 0).val = (i 0).val := by
  unfold DotDims.lhsIdx
  rw [dif_neg (show ¬(0 : Fin S480x92.rank) ∈ dot_S480x92_S92x2400_S480x2400_1_0_0_1_n_n.lhsBatch by decide),
    dif_pos (show (0 : Fin S480x92.rank) ∈ dot_S480x92_S92x2400_S480x2400_1_0_0_1_n_n.lhsNonContracting by decide)]
  rfl

/-- The left operand's column coordinate is the contraction position. -/
theorem lhs_classDot_1 (i : S480x2400.Idx) (q : dot_S480x92_S92x2400_S480x2400_1_0_0_1_n_n.contr.Idx) :
    (dot_S480x92_S92x2400_S480x2400_1_0_0_1_n_n.lhsIdx i q 1).val = (q ⟨0, by decide⟩).val :=
  dot_S480x92_S92x2400_S480x2400_1_0_0_1_n_n.lhsIdx_val_of_single rfl i q

/-- The right operand's row coordinate is the contraction position. -/
theorem rhs_classDot_0 (i : S480x2400.Idx) (q : dot_S480x92_S92x2400_S480x2400_1_0_0_1_n_n.contr.Idx) :
    (dot_S480x92_S92x2400_S480x2400_1_0_0_1_n_n.rhsIdx i q 0).val = (q ⟨0, by decide⟩).val :=
  dot_S480x92_S92x2400_S480x2400_1_0_0_1_n_n.rhsIdx_val_of_single rfl i q

/-- The right operand's column coordinate is the result's column. -/
theorem rhs_classDot_1 (i : S480x2400.Idx) (q : dot_S480x92_S92x2400_S480x2400_1_0_0_1_n_n.contr.Idx) :
    (dot_S480x92_S92x2400_S480x2400_1_0_0_1_n_n.rhsIdx i q 1).val = (i 1).val := by
  unfold DotDims.rhsIdx
  rw [dif_neg (show ¬(1 : Fin S92x2400.rank) ∈ dot_S480x92_S92x2400_S480x2400_1_0_0_1_n_n.rhsBatch by decide),
    dif_pos (show (1 : Fin S92x2400.rank) ∈ dot_S480x92_S92x2400_S480x2400_1_0_0_1_n_n.rhsNonContracting by decide)]
  rfl

/-- The product of a block of probabilities with the one-hot class matrix picks, at row `p` and target `q`, the
    probability of the target's class: every other term of the contraction is a product with zero. -/
theorem classDot_apply (P : FVec Ideal S480x92 .f32) (x3 : Vec Ideal S92x2400 .bf16) (lab : Fin 2400 → Fin 92)
    (hx3 : ∀ (c : Fin 92) (q : Fin 2400), x3 (ix2 c q) = if c = lab q then (1 : EReal) else 0)
    (p : Fin 480) (q : Fin 2400) :
    matmul dot_S480x92_S92x2400_S480x2400_1_0_0_1_n_n none (truncf .bf16 P bitsLt_bf16_f32)
        (shapeCast S92x2400 x3 shapeCasts_S92x2400_S92x2400 : FVec Ideal S92x2400 .bf16) (constant S480x2400 .f32 0x00000000#32) (ix2 p q)
      = P (ix2 p (lab q)) := by
  simp only [matmul]
  rw [Ideal.matmul_constant_zero_apply, ← Equiv.sum_comp (contrEquiv1 dot_S480x92_S92x2400_S480x2400_1_0_0_1_n_n 92 rfl rfl).symm]
  have hterm : ∀ k : Fin 92,
      (truncf .bf16 P bitsLt_bf16_f32 : FVec Ideal S480x92 .bf16)
          (dot_S480x92_S92x2400_S480x2400_1_0_0_1_n_n.lhsIdx (ix2 p q) ((contrEquiv1 dot_S480x92_S92x2400_S480x2400_1_0_0_1_n_n 92 rfl rfl).symm k))
        * (shapeCast S92x2400 x3 shapeCasts_S92x2400_S92x2400 : FVec Ideal S92x2400 .bf16)
          (dot_S480x92_S92x2400_S480x2400_1_0_0_1_n_n.rhsIdx (ix2 p q) ((contrEquiv1 dot_S480x92_S92x2400_S480x2400_1_0_0_1_n_n 92 rfl rfl).symm k))
        = P (ix2 p k) * (if k = lab q then (1 : EReal) else 0) := by
    intro k
    have hk := contrEquiv1_symm_val dot_S480x92_S92x2400_S480x2400_1_0_0_1_n_n 92 rfl rfl k
    have el : dot_S480x92_S92x2400_S480x2400_1_0_0_1_n_n.lhsIdx (ix2 p q) ((contrEquiv1 dot_S480x92_S92x2400_S480x2400_1_0_0_1_n_n 92 rfl rfl).symm k) = ix2 p k :=
      funext fun a => Fin.ext (by
        match a with
        | ⟨0, _⟩ => exact lhs_classDot_0 _ _
        | ⟨1, _⟩ => exact (lhs_classDot_1 _ _).trans hk)
    have er : dot_S480x92_S92x2400_S480x2400_1_0_0_1_n_n.rhsIdx (ix2 p q) ((contrEquiv1 dot_S480x92_S92x2400_S480x2400_1_0_0_1_n_n 92 rfl rfl).symm k) = ix2 k q :=
      funext fun a => Fin.ext (by
        match a with
        | ⟨0, _⟩ => exact (rhs_classDot_0 _ _).trans hk
        | ⟨1, _⟩ => exact rhs_classDot_1 _ _)
    rw [el, er, shapeCast_self, hx3]
    rfl
  rw [Finset.sum_congr rfl fun k _ => hterm k, Finset.sum_eq_single (lab q)]
  · rw [if_pos rfl, mul_one]
  · intro k _ hne
    rw [if_neg hne, mul_zero]
  · intro h
    exact absurd (Finset.mem_univ _) h

end Cert.KernelIdeal.Body

end
-- ==== Proof.KernelBody.lean ====
/-
  What the kernel body stores for one block of rows, read at an index: the matching cost of the block's row against the
  target.
-/
import proofs.«408570_j72155450572906_2_alg».proof.Proof.Gen.KernelIdeal.Frame
import proofs.«408570_j72155450572906_2_alg».proof.Proof.Spec
import proofs.«408570_j72155450572906_2_alg».proof.Proof.KSoftmax
import Idealize.ShloMosaic.Lib.ValueIdx
import Idealize.ShloMosaic.Lib.Pipeline.Value
import Idealize.ShloMosaic.PureOps.Ideal.Laws
import Idealize.ShloMosaic.Lib.ValueLayout

noncomputable section

open scoped BigOperators

namespace Cert.KernelIdeal.Body

open Idealize.ShloMosaic Idealize.ShloMosaic.ValueIdx Cert.KernelIdeal Cert.KernelIdeal.Gen Cert.Matcher

/-! ## Layout reads -/

/-- A `[a, 1]` column broadcast to `[a, b]` reads, at `(p, c)`, the column at row `p`. -/
theorem bcCol_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The same-shape cast of the box block is the block. -/
theorem pay3_eq (x1 : Vec Ideal S480x4 .f32) : k0_pay3 (F := Ideal) x1 = x1 := by
  unfold k0_pay3; exact shapeCast_self _ _

/-- The same-shape cast of the target block is the block. -/
theorem pay13_eq (x2 : Vec Ideal S4x2400 .f32) : k0_pay13 (F := Ideal) x2 = x2 := by
  unfold k0_pay13; exact shapeCast_self _ _

/-- Column `0` of the box block. -/
theorem pay4_apply (x1 : Vec Ideal S480x4 .f32) (p : Fin 480) :
    k0_pay4 (F := Ideal) x1 (ix2 p (0 : Fin 1)) = x1 (ix2 p 0) := by
  unfold k0_pay4; rw [pay3_eq]
  exact slice2_axis1_apply 0 x1 _ p 0 0 rfl

/-- Column `1` of the box block. -/
theorem pay5_apply (x1 : Vec Ideal S480x4 .f32) (p : Fin 480) :
    k0_pay5 (F := Ideal) x1 (ix2 p (0 : Fin 1)) = x1 (ix2 p 1) := by
  unfold k0_pay5; rw [pay3_eq]
  exact slice2_axis1_apply 1 x1 _ p 0 1 rfl

/-- Column `2` of the box block. -/
theorem pay6_apply (x1 : Vec Ideal S480x4 .f32) (p : Fin 480) :
    k0_pay6 (F := Ideal) x1 (ix2 p (0 : Fin 1)) = x1 (ix2 p 2) := by
  unfold k0_pay6; rw [pay3_eq]
  exact slice2_axis1_apply 2 x1 _ p 0 2 rfl

/-- Column `3` of the box block. -/
theorem pay7_apply (x1 : Vec Ideal S480x4 .f32) (p : Fin 480) :
    k0_pay7 (F := Ideal) x1 (ix2 p (0 : Fin 1)) = x1 (ix2 p 3) := by
  unfold k0_pay7; rw [pay3_eq]
  exact slice2_axis1_apply 3 x1 _ p 0 3 rfl

/-- Row `0` of the transposed target block. -/
theorem pay14_apply (x2 : Vec Ideal S4x2400 .f32) (q : Fin 2400) :
    k0_pay14 (F := Ideal) x2 (ix2 (0 : Fin 1) q) = x2 (ix2 0 q) := by
  unfold k0_pay14; rw [pay13_eq]
  exact slice2_axis0_apply 0 x2 _ 0 q 0 rfl

/-- Row `1` of the transposed target block. -/
theorem pay15_apply (x2 : Vec Ideal S4x2400 .f32) (q : Fin 2400) :
    k0_pay15 (F := Ideal) x2 (ix2 (0 : Fin 1) q) = x2 (ix2 1 q) := by
  unfold k0_pay15; rw [pay13_eq]
  exact slice2_axis0_apply 1 x2 _ 0 q 1 rfl

/-- Row `2` of the transposed target block. -/
theorem pay16_apply (x2 : Vec Ideal S4x2400 .f32) (q : Fin 2400) :
    k0_pay16 (F := Ideal) x2 (ix2 (0 : Fin 1) q) = x2 (ix2 2 q) := by
  unfold k0_pay16; rw [pay13_eq]
  exact slice2_axis0_apply 2 x2 _ 0 q 2 rfl

/-- Row `3` of the transposed target block. -/
theorem pay17_apply (x2 : Vec Ideal S4x2400 .f32) (q : Fin 2400) :
    k0_pay17 (F := Ideal) x2 (ix2 (0 : Fin 1) q) = x2 (ix2 3 q) := by
  unfold k0_pay17; rw [pay13_eq]
  exact slice2_axis0_apply 3 x2 _ 0 q 3 rfl

/-! ## The corners of the prediction boxes and of the targets -/

/-- The low `x` corner of a prediction box. -/
theorem pay8_apply (x1 : Vec Ideal S480x4 .f32) (p : Fin 480) :
    k0_pay8 (F := Ideal) x1 (ix2 p (0 : Fin 1)) = lo (x1 (ix2 p 0)) (x1 (ix2 p 2)) := by
  unfold k0_pay8
  show k0_pay4 (F := Ideal) x1 (ix2 p (0 : Fin 1)) - half * k0_pay6 (F := Ideal) x1 (ix2 p (0 : Fin 1)) = _
  rw [pay4_apply, pay6_apply]; rfl

/-- The low `y` corner of a prediction box. -/
theorem pay9_apply (x1 : Vec Ideal S480x4 .f32) (p : Fin 480) :
    k0_pay9 (F := Ideal) x1 (ix2 p (0 : Fin 1)) = lo (x1 (ix2 p 1)) (x1 (ix2 p 3)) := by
  unfold k0_pay9
  show k0_pay5 (F := Ideal) x1 (ix2 p (0 : Fin 1)) - half * k0_pay7 (F := Ideal) x1 (ix2 p (0 : Fin 1)) = _
  rw [pay5_apply, pay7_apply]; rfl

/-- The high `x` corner of a prediction box. -/
theorem pay10_apply (x1 : Vec Ideal S480x4 .f32) (p : Fin 480) :
    k0_pay10 (F := Ideal) x1 (ix2 p (0 : Fin 1)) = hi (x1 (ix2 p 0)) (x1 (ix2 p 2)) := by
  unfold k0_pay10
  show k0_pay4 (F := Ideal) x1 (ix2 p (0 : Fin 1)) + half * k0_pay6 (F := Ideal) x1 (ix2 p (0 : Fin 1)) = _
  rw [pay4_apply, pay6_apply]; rfl

/-- The high `y` corner of a prediction box. -/
theorem pay11_apply (x1 : Vec Ideal S480x4 .f32) (p : Fin 480) :
    k0_pay11 (F := Ideal) x1 (ix2 p (0 : Fin 1)) = hi (x1 (ix2 p 1)) (x1 (ix2 p 3)) := by
  unfold k0_pay11
  show k0_pay5 (F := Ideal) x1 (ix2 p (0 : Fin 1)) + half * k0_pay7 (F := Ideal) x1 (ix2 p (0 : Fin 1)) = _
  rw [pay5_apply, pay7_apply]; rfl

/-- The area of a prediction box, from its corners. -/
theorem pay12_apply (x1 : Vec Ideal S480x4 .f32) (p : Fin 480) :
    k0_pay12 (F := Ideal) x1 (ix2 p (0 : Fin 1)) = areaC (corners fun k => x1 (ix2 p k)) := by
  unfold k0_pay12
  show (k0_pay10 (F := Ideal) x1 (ix2 p (0 : Fin 1)) - k0_pay8 (F := Ideal) x1 (ix2 p (0 : Fin 1)))
      * (k0_pay11 (F := Ideal) x1 (ix2 p (0 : Fin 1)) - k0_pay9 (F := Ideal) x1 (ix2 p (0 : Fin 1))) = _
  rw [pay8_apply, pay9_apply, pay10_apply, pay11_apply]; rfl

/-- The low `x` corner of a target. -/
theorem pay18_apply (x2 : Vec Ideal S4x2400 .f32) (q : Fin 2400) :
    k0_pay18 (F := Ideal) x2 (ix2 (0 : Fin 1) q) = lo (x2 (ix2 0 q)) (x2 (ix2 2 q)) := by
  unfold k0_pay18
  show k0_pay14 (F := Ideal) x2 (ix2 (0 : Fin 1) q) - half * k0_pay16 (F := Ideal) x2 (ix2 (0 : Fin 1) q) = _
  rw [pay14_apply, pay16_apply]; rfl

/-- The broadcast one half. -/
theorem pay19_apply (i : S1x2400.Idx) : k0_pay19 (F := Ideal) i = half := rfl

/-- The low `y` corner of a target, from rows `1` and `3` and the broadcast half. -/
theorem pay20_apply (x2 : Vec Ideal S4x2400 .f32) (q : Fin 2400) :
    k0_pay20 (F := Ideal) (k0_pay15 x2) (k0_pay17 x2) k0_pay19 (ix2 (0 : Fin 1) q) = lo (x2 (ix2 1 q)) (x2 (ix2 3 q)) := by
  unfold k0_pay20
  show k0_pay15 (F := Ideal) x2 (ix2 (0 : Fin 1) q) - half * k0_pay17 (F := Ideal) x2 (ix2 (0 : Fin 1) q) = _
  rw [pay15_apply, pay17_apply]; rfl

/-- The high `x` corner of a target. -/
theorem pay21_apply (x2 : Vec Ideal S4x2400 .f32) (q : Fin 2400) :
    k0_pay21 (F := Ideal) (k0_pay14 x2) (k0_pay16 x2) (ix2 (0 : Fin 1) q) = hi (x2 (ix2 0 q)) (x2 (ix2 2 q)) := by
  unfold k0_pay21
  show k0_pay14 (F := Ideal) x2 (ix2 (0 : Fin 1) q) + half * k0_pay16 (F := Ideal) x2 (ix2 (0 : Fin 1) q) = _
  rw [pay14_apply, pay16_apply]; rfl

/-- The high `y` corner of a target. -/
theorem pay22_apply (x2 : Vec Ideal S4x2400 .f32) (q : Fin 2400) :
    k0_pay22 (F := Ideal) (k0_pay15 x2) (k0_pay17 x2) (ix2 (0 : Fin 1) q) = hi (x2 (ix2 1 q)) (x2 (ix2 3 q)) := by
  unfold k0_pay22
  show k0_pay15 (F := Ideal) x2 (ix2 (0 : Fin 1) q) + half * k0_pay17 (F := Ideal) x2 (ix2 (0 : Fin 1) q) = _
  rw [pay15_apply, pay17_apply]; rfl

/-! ## The overlap, the union and the enclosing rectangle -/

/-- The intersection area, over any columns and rows of corners. -/
theorem pay23_read (v21 v24 v27 v30 : FVec Ideal S480x1 .f32) (v36 v37 v38 v39 v42 v43 : FVec Ideal S1x2400 .f32)
    (p : Fin 480) (q : Fin 2400) :
    k0_pay23 v21 v24 v27 v30 v36 v37 v38 v39 v42 v43 (ix2 p q)
      = max (min (v27 (ix2 p (0 : Fin 1))) (k0_pay21 v36 v38 (ix2 (0 : Fin 1) q))
            - max (v21 (ix2 p (0 : Fin 1))) (v42 (ix2 (0 : Fin 1) q))) zero
        * max (min (v30 (ix2 p (0 : Fin 1))) (k0_pay22 v37 v39 (ix2 (0 : Fin 1) q))
            - max (v24 (ix2 p (0 : Fin 1))) (k0_pay20 v37 v39 v43 (ix2 (0 : Fin 1) q))) zero := by
  unfold k0_pay23
  simp only [mulf_apply, maximumf_apply, minimumf_apply, subf_apply, broadcast_apply, bcCol_apply,
    broadcastTo_1b_ab_apply]
  rfl

/-- The union area: the two areas less the intersection. -/
theorem pay24_read (v21 v24 v27 v30 v33 : FVec Ideal S480x1 .f32) (v36 v37 v38 v39 v42 v43 : FVec Ideal S1x2400 .f32)
    (p : Fin 480) (q : Fin 2400) :
    k0_pay24 v21 v24 v27 v30 v33 v36 v37 v38 v39 v42 v43 (ix2 p q)
      = (v33 (ix2 p (0 : Fin 1))
          + (k0_pay21 v36 v38 (ix2 (0 : Fin 1) q) - v42 (ix2 (0 : Fin 1) q))
            * (k0_pay22 v37 v39 (ix2 (0 : Fin 1) q) - k0_pay20 v37 v39 v43 (ix2 (0 : Fin 1) q)))
        - k0_pay23 v21 v24 v27 v30 v36 v37 v38 v39 v42 v43 (ix2 p q) := by
  unfold k0_pay24
  simp only [mulf_apply, addf_apply, subf_apply, bcCol_apply, broadcastTo_1b_ab_apply]

/-- The ratio of the intersection to the union. -/
theorem pay25_read (v21 v24 v27 v30 v33 : FVec Ideal S480x1 .f32) (v36 v37 v38 v39 v42 v43 : FVec Ideal S1x2400 .f32)
    (i : S480x2400.Idx) :
    k0_pay25 v21 v24 v27 v30 v33 v36 v37 v38 v39 v42 v43 i
      = Ideal.div (k0_pay23 v21 v24 v27 v30 v36 v37 v38 v39 v42 v43 i)
          (k0_pay24 v21 v24 v27 v30 v33 v36 v37 v38 v39 v42 v43 i) := rfl

/-- The area of the enclosing rectangle, over any columns and rows of corners. -/
theorem pay26_read (v21 v24 v27 v30 : FVec Ideal S480x1 .f32) (v36 v37 v38 v39 v42 v43 : FVec Ideal S1x2400 .f32)
    (p : Fin 480) (q : Fin 2400) :
    k0_pay26 v21 v24 v27 v30 v36 v37 v38 v39 v42 v43 (ix2 p q)
      = max (max (v27 (ix2 p (0 : Fin 1))) (k0_pay21 v36 v38 (ix2 (0 : Fin 1) q))
            - min (v21 (ix2 p (0 : Fin 1))) (v42 (ix2 (0 : Fin 1) q))) zero
        * max (max (v30 (ix2 p (0 : Fin 1))) (k0_pay22 v37 v39 (ix2 (0 : Fin 1) q))
            - min (v24 (ix2 p (0 : Fin 1))) (k0_pay20 v37 v39 v43 (ix2 (0 : Fin 1) q))) zero := by
  unfold k0_pay26
  simp only [mulf_apply, maximumf_apply, minimumf_apply, subf_apply, broadcast_apply, bcCol_apply,
    broadcastTo_1b_ab_apply]
  rfl

/-! ## The three areas of a row's box against a target -/

section Areas
variable (x1 : Vec Ideal S480x4 .f32) (x2 : Vec Ideal S4x2400 .f32) (p : Fin 480) (q : Fin 2400)

/-- The kernel's intersection area is the specification's. -/
theorem inter_apply :
    k0_pay23 (F := Ideal) (k0_pay8 x1) (k0_pay9 x1) (k0_pay10 x1) (k0_pay11 x1) (k0_pay14 x2) (k0_pay15 x2) (k0_pay16 x2)
        (k0_pay17 x2) (k0_pay18 x2) k0_pay19 (ix2 p q)
      = interC (corners fun k => x1 (ix2 p k)) (corners fun k => x2 (ix2 k q)) := by
  rw [pay23_read, pay8_apply, pay9_apply, pay10_apply, pay11_apply, pay18_apply, pay20_apply, pay21_apply, pay22_apply]
  rfl

/-- The kernel's union area is the specification's. -/
theorem union_apply :
    k0_pay24 (F := Ideal) (k0_pay8 x1) (k0_pay9 x1) (k0_pay10 x1) (k0_pay11 x1) (k0_pay12 x1) (k0_pay14 x2) (k0_pay15 x2)
        (k0_pay16 x2) (k0_pay17 x2) (k0_pay18 x2) k0_pay19 (ix2 p q)
      = unionC (corners fun k => x1 (ix2 p k)) (corners fun k => x2 (ix2 k q)) := by
  rw [pay24_read, inter_apply, pay12_apply, pay18_apply, pay20_apply, pay21_apply, pay22_apply]
  rfl

/-- The kernel's enclosing area is the specification's. -/
theorem enclose_apply :
    k0_pay26 (F := Ideal) (k0_pay8 x1) (k0_pay9 x1) (k0_pay10 x1) (k0_pay11 x1) (k0_pay14 x2) (k0_pay15 x2) (k0_pay16 x2)
        (k0_pay17 x2) (k0_pay18 x2) k0_pay19 (ix2 p q)
      = encloseC (corners fun k => x1 (ix2 p k)) (corners fun k => x2 (ix2 k q)) := by
  rw [pay26_read, pay8_apply, pay9_apply, pay10_apply, pay11_apply, pay18_apply, pay20_apply, pay21_apply, pay22_apply]
  rfl

/-- The kernel's ratio of intersection to union is the specification's. -/
theorem iou_apply :
    k0_pay25 (F := Ideal) (k0_pay8 x1) (k0_pay9 x1) (k0_pay10 x1) (k0_pay11 x1) (k0_pay12 x1) (k0_pay14 x2) (k0_pay15 x2)
        (k0_pay16 x2) (k0_pay17 x2) (k0_pay18 x2) k0_pay19 (ix2 p q)
      = Ideal.div (interC (corners fun k => x1 (ix2 p k)) (corners fun k => x2 (ix2 k q)))
          (unionC (corners fun k => x1 (ix2 p k)) (corners fun k => x2 (ix2 k q))) := by
  rw [pay25_read, inter_apply, union_apply]

end Areas

/-! ## The stored sum -/

/-- The absolute value of a block, read at an index. -/
theorem absf_read (a : FVec Ideal S480x2400 .f32) (i : S480x2400.Idx) : absf a i = abs' (a i) := rfl

/-- The stored value, over any operands: the four absolute differences summed in order, plus zero less the class
    product, plus zero less the generalized ratio. -/
theorem pay1_read (v12 : FVec Ideal S480x92 .f32) (v15 v16 v17 v18 : FVec Ideal S480x1 .f32)
    (v36 v37 v38 v39 : FVec Ideal S1x2400 .f32) (v77 v78 v97 : FVec Ideal S480x2400 .f32)
    (v122 : Vec Ideal S92x2400 .bf16) (p : Fin 480) (q : Fin 2400) :
    k0_pay1 v12 v15 v16 v17 v18 v36 v37 v38 v39 v77 v78 v97 v122 (ix2 p q)
      = ((((abs' (v15 (ix2 p (0 : Fin 1)) - v36 (ix2 (0 : Fin 1) q))
              + abs' (v16 (ix2 p (0 : Fin 1)) - v37 (ix2 (0 : Fin 1) q)))
            + abs' (v17 (ix2 p (0 : Fin 1)) - v38 (ix2 (0 : Fin 1) q)))
          + abs' (v18 (ix2 p (0 : Fin 1)) - v39 (ix2 (0 : Fin 1) q)))
        + (zero - matmul dot_S480x92_S92x2400_S480x2400_1_0_0_1_n_n none (truncf .bf16 v12 bitsLt_bf16_f32)
            (shapeCast S92x2400 v122 shapeCasts_S92x2400_S92x2400 : FVec Ideal S92x2400 .bf16)
            (constant S480x2400 .f32 0x00000000#32) (ix2 p q)))
        + (zero - (v78 (ix2 p q) - Ideal.div (v97 (ix2 p q) - v77 (ix2 p q)) (v97 (ix2 p q)))) := by
  unfold k0_pay1
  simp only [addf_apply, subf_apply, divf_apply, absf_read, broadcast_apply, bcCol_apply, broadcastTo_1b_ab_apply]
  rfl

/-- The stored block at row `p` and target `q`, from the four input blocks: logits `x0`, prediction boxes `x1`, the
    transposed target boxes `x2` and the one-hot class matrix `x3` of the labels `lab`. -/
theorem out_apply (x0 : Vec Ideal S480x92 .f32) (x1 : Vec Ideal S480x4 .f32) (x2 : Vec Ideal S4x2400 .f32)
    (x3 : Vec Ideal S92x2400 .bf16) (lab : Fin 2400 → Fin 92)
    (hx3 : ∀ (c : Fin 92) (q : Fin 2400), x3 (ix2 c q) = if c = lab q then (1 : EReal) else 0)
    (p : Fin 480) (q : Fin 2400) :
    out0_4 (F := Ideal) x0 x1 x2 x3 (ix2 p q)
      = costAt (fun c => x0 (ix2 p c)) (fun k => x1 (ix2 p k)) (fun k => x2 (ix2 k q)) (lab q) := by
  have hz : (![0, 0] : Fin 2 → Nat) = fun _ => 0 := funext fun a => by fin_cases a <;> rfl
  unfold out0_4
  rw [View.canon_unit_zero hz]
  simp only [View.ld_unit_zero (S := S480x92) hz, View.ld_unit_zero (S := S480x4) hz,
    View.ld_unit_zero (S := S4x2400) hz, View.ld_unit_zero (S := S92x2400) hz]
  rw [pay1_read, classDot_apply (k0_pay2 x0) x3 lab hx3 p q, pay2_apply, union_apply, iou_apply, enclose_apply,
    pay4_apply, pay5_apply, pay6_apply, pay7_apply, pay14_apply, pay15_apply, pay16_apply, pay17_apply]
  rfl

end Cert.KernelIdeal.Body

end
-- ==== Proof.KValue.lean ====
/-
  The kernel's result, as one function of its arguments.

  Grid point `t` of the one region stores rows `480·t … 480·t + 479` of the cost matrix; the twenty points cover its 9600
  rows, so the region's output array ends holding the whole matrix, and the host line after it lays the matrix out as
  `[16, 600, 2400]`.
-/
import proofs.«408570_j72155450572906_2_alg».proof.Proof.Gen.KernelIdeal.Frame
import proofs.«408570_j72155450572906_2_alg».proof.Proof.Spec
import proofs.«408570_j72155450572906_2_alg».proof.Proof.KHost
import proofs.«408570_j72155450572906_2_alg».proof.Proof.KernelBody
import Idealize.ShloMosaic.Lib.ValueIdx
import Idealize.ShloMosaic.Lib.Pipeline.Value
import Idealize.ShloMosaic.Lib.StableHlo.Run

set_option maxRecDepth 16384

noncomputable section

namespace Cert.KernelIdeal.CostValue

open Idealize.ShloMosaic Idealize.ShloMosaic.TcCoe Idealize.SL.Sem Idealize.ShloMosaic.StableHlo
open Idealize.ShloMosaic.ValueIdx Cert.KernelIdeal Cert.KernelIdeal.Gen Cert.Matcher
open Idealize.ShloMosaic.Pipeline (Dat Cfg Window)

variable (m : (ℓ : Loc nD τ sig) → Buf (Elt Ideal) ℓ) (ρ : Dev nD → PrngReg)

/-- The cost matrix of the arguments as launched: the flattened logits and prediction boxes against the target boxes and
    the classes `lab`. -/
def C2 (c : Dev nD) (lab : Fin 2400 → Fin 92) : S9600x2400.Idx → EReal :=
  cost2 (shapeCast S9600x92 (m ((c : Thread nD τ).loc main_arg0)) shapeCasts_S16x600x92_S9600x92)
    (shapeCast S9600x4 (m ((c : Thread nD τ).loc main_arg1)) shapeCasts_S16x600x4_S9600x4)
    (m ((c : Thread nD τ).loc main_arg2)) lab

/-- The block index of each window at each grid point: the row windows move with the point, the two whole-array windows
    stay. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 ∧ t.val < 20 :=
  (by decide +kernel : ∀ t : Fin grid0.N, _)

/-- Row `p` of point `t`'s block is row `480·t + p` of the array. -/
def row (t : Fin cfg0.N) (p : Fin 480) : Fin 9600 := ⟨480 * t.val + p.val, by
  have := (idx_facts t).2.2.2.2.2.2.2.2.2.2; have := p.isLt; omega⟩

/-- The logits block of point `t`, at `(p, k)`. -/
theorem blk0_apply (c : Dev nD) (t : Fin cfg0.N) (p : Fin 480) (k : Fin 92) :
    iblk m c 0 t (ix2 p k) = (V m c main_v0 : S9600x92.Idx → EReal) (ix2 (row t p) k) := by
  obtain ⟨e0, e1, -⟩ := idx_facts t
  show (V m c main_v0 : S9600x92.Idx → EReal) (((cfg0.win 0).blk t).view.emb (ix2 p k)) = _
  refine congrArg _ (funext fun a => Fin.ext ?_)
  match a with
  | ⟨0, _⟩ => show win0_0.index t (0 : Fin 2) * 480 + 1 * p.val = 480 * t.val + p.val; omega
  | ⟨1, _⟩ => show win0_0.index t (1 : Fin 2) * 92 + 1 * k.val = k.val; omega

/-- The prediction-box block of point `t`, at `(p, k)`. -/
theorem blk1_apply (c : Dev nD) (t : Fin cfg0.N) (p : Fin 480) (k : Fin 4) :
    iblk m c 1 t (ix2 p k) = (V m c main_v1 : S9600x4.Idx → EReal) (ix2 (row t p) k) := by
  obtain ⟨-, -, e0, e1, -⟩ := idx_facts t
  show (V m c main_v1 : S9600x4.Idx → EReal) (((cfg0.win 1).blk t).view.emb (ix2 p k)) = _
  refine congrArg _ (funext fun a => Fin.ext ?_)
  match a with
  | ⟨0, _⟩ => show win0_1.index t (0 : Fin 2) * 480 + 1 * p.val = 480 * t.val + p.val; omega
  | ⟨1, _⟩ => show win0_1.index t (1 : Fin 2) * 4 + 1 * k.val = k.val; omega

/-- The transposed target boxes are one block, the same at every point. -/
theorem blk2_apply (c : Dev nD) (t : Fin cfg0.N) (k : Fin 4) (q : Fin 2400) :
    iblk m c 2 t (ix2 k q) = (V m c main_v2 : S4x2400.Idx → EReal) (ix2 k q) := by
  obtain ⟨-, -, -, -, e0, e1, -⟩ := idx_facts t
  show (V m c main_v2 : S4x2400.Idx → EReal) (((cfg0.win 2).blk t).view.emb (ix2 k q)) = _
  refine congrArg _ (funext fun a => Fin.ext ?_)
  match a with
  | ⟨0, _⟩ => show win0_2.index t (0 : Fin 2) * 4 + 1 * k.val = k.val; omega
  | ⟨1, _⟩ => show win0_2.index t (1 : Fin 2) * 2400 + 1 * q.val = q.val; omega

/-- So is the one-hot class matrix. -/
theorem blk3_apply (c : Dev nD) (t : Fin cfg0.N) (cl : Fin 92) (q : Fin 2400) :
    iblk m c 3 t (ix2 cl q) = (V m c main_v9 : S92x2400.Idx → EReal) (ix2 cl q) := by
  obtain ⟨-, -, -, -, -, -, e0, e1, -⟩ := idx_facts t
  show (V m c main_v9 : S92x2400.Idx → EReal) (((cfg0.win 3).blk t).view.emb (ix2 cl q)) = _
  refine congrArg _ (funext fun a => Fin.ext ?_)
  match a with
  | ⟨0, _⟩ => show win0_3.index t (0 : Fin 2) * 92 + 1 * cl.val = cl.val; omega
  | ⟨1, _⟩ => show win0_3.index t (1 : Fin 2) * 2400 + 1 * q.val = q.val; omega

/-- WHAT POINT `t` WRITES BACK is block `t` of the cost matrix: its rows `480·t …`. -/
theorem flushed_eq (c : Dev nD) (lab : Fin 2400 → Fin 92)
    (hlab : ∀ q : Fin 2400, m ((c : Thread nD τ).loc main_arg3) (ix1 q) = BitVec.ofNat 32 (lab q).val) (t : Fin cfg0.N) :
    (dats m 0 c).flushed 4 t = ((cfg0.win 4).blk t).view.read (Elt Ideal) (C2 m c lab) := by
  show (cfg0.win 4).cut (grid0.coords t) ((dats m 0 c).after 4 t) = _
  rw [after0_4]
  funext j
  obtain ⟨p, q, rfl⟩ : ∃ (p : Fin 480) (q : Fin 2400), j = ix2 p q := ⟨j 0, j 1, eq_ix2 j⟩
  show out0_4 (F := Ideal) (iblk m c 0 t) (iblk m c 1 t) (iblk m c 2 t) (iblk m c 3 t) (ix2 p q)
    = C2 m c lab (((cfg0.win 4).blk t).view.emb (ix2 p q))
  -- the one-hot block is the whole class matrix
  have hx3 : ∀ (cl : Fin 92) (q' : Fin 2400), iblk m c 3 t (ix2 cl q') = if cl = lab q' then (1 : EReal) else 0 :=
    fun cl q' => (blk3_apply m c t cl q').trans (HostValue.onehot_apply m c lab hlab cl q')
  have key := Body.out_apply (iblk m c 0 t) (iblk m c 1 t) (iblk m c 2 t) (iblk m c 3 t) lab hx3 p q
  refine key.trans ?_
  -- the three rows the cost reads, in the arguments
  have h0 : (fun c' : Fin 92 => (iblk m c 0 t (ix2 p c') : EReal))
      = fun c' => shapeCast S9600x92 (m ((c : Thread nD τ).loc main_arg0)) shapeCasts_S16x600x92_S9600x92 (ix2 (row t p) c') :=
    funext fun k => by rw [blk0_apply, HostValue.V_v0]
  have h1 : (fun k : Fin 4 => (iblk m c 1 t (ix2 p k) : EReal))
      = fun k => shapeCast S9600x4 (m ((c : Thread nD τ).loc main_arg1)) shapeCasts_S16x600x4_S9600x4 (ix2 (row t p) k) :=
    funext fun k => by rw [blk1_apply, HostValue.V_v1]
  have h2 : (fun k : Fin 4 => (iblk m c 2 t (ix2 k q) : EReal))
      = fun k => m ((c : Thread nD τ).loc main_arg2) (ix2 q k) :=
    funext fun k => by rw [blk2_apply, HostValue.tgtT_apply]
  -- and where the block's entry sits in the array
  have hemb : ((cfg0.win 4).blk t).view.emb (ix2 p q) = (ix2 (row t p) q : S9600x2400.Idx) := by
    obtain ⟨-, -, -, -, -, -, -, -, e0, e1, -⟩ := idx_facts t
    funext a; apply Fin.ext
    match a with
    | ⟨0, _⟩ => show win0_4.index t (0 : Fin 2) * 480 + 1 * p.val = 480 * t.val + p.val; omega
    | ⟨1, _⟩ => show win0_4.index t (1 : Fin 2) * 2400 + 1 * q.val = q.val; omega
  refine (congr (congr (congrArg (fun a b d => costAt a b d (lab q)) h0) h1) h2).trans ?_
  rw [hemb]
  rfl

/-- Every block row is some point's. -/
theorem idx_onto : ∀ q0 : Fin 20, ∃ t : Fin cfg0.N, win0_4.index t = ![q0.val, 0] :=
  (by decide +kernel : ∀ q0 : Fin 20, ∃ t : Fin grid0.N, win0_4.index t = ![q0.val, 0])

/-- An index of the array is in point `t`'s block iff each coordinate is in the block's range on its axis. -/
theorem mem_blk (t : Fin cfg0.N) (i : S9600x2400.Idx) :
    i ∈ ((cfg0.win 4).blk t).view.set ↔ ∀ a : Fin 2, win0_4.index t a * S480x2400.size a ≤ (i a).val
      ∧ (i a).val < win0_4.index t a * S480x2400.size a + S480x2400.size a := by
  show i ∈ ((View.whole main_v10).slice (win0_4.rect t)).set ↔ _
  rw [View.set_slice_whole, Rect.mem_set_unit]
  exact Iff.rfl

/-- The twenty blocks of 480 rows cover the 9600 rows: row `r` is in block `r / 480`. -/
theorem cover (i : S9600x2400.Idx) :
    ∃ t : Fin cfg0.N, (cfg0.win 4).flush t = true ∧ i ∈ ((cfg0.win 4).blk t).view.set := by
  have hi0 : (i 0).val < 9600 := (i 0).isLt
  have hi1 : (i 1).val < 2400 := (i 1).isLt
  obtain ⟨t, ht⟩ := idx_onto ⟨(i 0).val / 480, by omega⟩
  have q0 : win0_4.index t (0 : Fin 2) = (i 0).val / 480 := congrFun ht 0
  have q1 : win0_4.index t (1 : Fin 2) = 0 := congrFun ht 1
  refine ⟨t, flush0_4 t, ?_⟩
  rw [mem_blk]
  intro a
  match a with
  | ⟨0, _⟩ => show win0_4.index t (0 : Fin 2) * 480 ≤ (i 0).val ∧ (i 0).val < win0_4.index t (0 : Fin 2) * 480 + 480; omega
  | ⟨1, _⟩ => show win0_4.index t (1 : Fin 2) * 2400 ≤ (i 1).val ∧ (i 1).val < win0_4.index t (1 : Fin 2) * 2400 + 2400; omega

/-- THE REGION'S OUTPUT ARRAY after the run is the cost matrix. -/
theorem final (c : Dev nD) (lab : Fin 2400 → Fin 92)
    (hlab : ∀ q : Fin 2400, m ((c : Thread nD τ).loc main_arg3) (ix1 q) = BitVec.ofNat 32 (lab q).val) :
    (dats m 0 c).arrAt 4 cfg0.N = C2 m c lab :=
  (dats m 0 c).arrAt_eq_of_cover 4 (C2 m c lab) (fun t _ => flushed_eq m c lab hlab t) cover

/-- THE RESULT: the host line after the region lays the cost matrix out as `[16, 600, 2400]`. -/
theorem tail_v11 (c : Dev nD) (lab : Fin 2400 → Fin 92)
    (hlab : ∀ q : Fin 2400, m ((c : Thread nD τ).loc main_arg3) (ix1 q) = BitVec.ofNat 32 (lab q).val) :
    (Pipeline.afterTail₀ cfgs (dats m) 0 (V0 m) [hostOps1] c main_v11 : S16x600x2400.Idx → EReal)
      = shapeCast S16x600x2400 (C2 m c lab) shapeCasts_S9600x2400_S16x600x2400 := by
  unfold Pipeline.afterTail₀
  show StableHlo.after hostOps1 _ (Proc.devRef .tc main_v11) = _
  after_results
  have e : (Pipeline.withArrays (cfgs 0).spec c (V0 m c) (fun w => (dats m 0 c).arrAt w (cfgs 0).N)
      (Proc.devRef .tc main_v10) : S9600x2400.Idx → EReal) = C2 m c lab :=
    (Pipeline.withArrays_arr spec0 launch0.win.arr_inj c _ _ 4).trans (final m c lab hlab)
  exact congrArg (fun X : S9600x2400.Idx → EReal => shapeCast S16x600x2400 X shapeCasts_S9600x2400_S16x600x2400) e

/-- THE RUN, READ: every weakly fair execution of the kernel program terminates with its result at the cost matrix laid
    out as `[16, 600, 2400]`, the arguments unchanged — when each label word is the word of its class. -/
theorem run (lab : Dev nD → Fin 2400 → Fin 92)
    (hlab : ∀ (c : Dev nD) (q : Fin 2400), m ((c : Thread nD τ).loc main_arg3) (ix1 q) = BitVec.ofNat 32 (lab c q).val) :
    θ_run defs (onTc (τ := τ) (main (F := Ideal))) ⟨m, fun _ => 0, ρ⟩ fun r => ∀ c : Dev nD,
      r.2.mem ((c.tc : Thread nD τ).loc main_v11)
          = shapeCast S16x600x2400 (C2 m c (lab c)) shapeCasts_S9600x2400_S16x600x2400
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v11 (Pipeline.mem_restRefs_of main_v11 (by decide) (by decide))).trans (tail_v11 m c (lab c) (hlab c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.CostValue

end
-- ==== Proof.RClass.lean ====
/-
  The reference's class term: the softmax of the flattened logits, gathered at the targets' classes and negated.
-/
import proofs.«408570_j72155450572906_2_alg».proof.Proof.Gen.ReferenceIdeal.Read
import proofs.«408570_j72155450572906_2_alg».proof.Proof.Spec
import Idealize.ShloMosaic.Lib.ValueIdx
import Idealize.ShloMosaic.Lib.Pipeline.Value
import Idealize.ShloMosaic.PureOps.Ideal.Laws
import Idealize.ShloMosaic.Lib.StableHlo.Predicate

noncomputable section

open scoped BigOperators

namespace Cert.ReferenceIdeal.RefValue

open Idealize.ShloMosaic Idealize.ShloMosaic.ValueIdx Cert.ReferenceIdeal Cert.ReferenceIdeal.Read Cert.Matcher
open Cert.ReferenceIdeal.Facts₀

/-! ## The softmax of a row -/

/-- The source index over row `n` with class `k` inserted on the reduced axis. -/
theorem lift_ix (n : Fin 9600) (k : Fin 92) (h : S9600x92.Reduces [1] S9600) :
    h.lift (ix1 n) k = ix2 n k := by
  funext a
  apply Fin.ext
  show h.liftVal (ix1 n) k.val a = _
  unfold Shape.Reduces.liftVal
  match a with
  | ⟨0, _⟩ => rfl
  | ⟨1, _⟩ => rfl

/-- The reduction of row `n` by the maximum is the fold of `max` over the row from `−∞`. -/
theorem v1_apply (x0 : (⟨S16x600x92, .f32⟩ : BufTy).Contents (Elt Ideal)) (n : Fin 9600) :
    val_main_v1 (F := Ideal) x0 (ix1 n)
      = (Finset.univ : Finset (Fin 92)).fold max negInf (fun c => val_main_v0 (F := Ideal) x0 (ix2 n c)) := by
  unfold val_main_v1
  rw [Host.reduce_eq_fold_single (FloatOps.maximumf (F := Ideal) (φ := .f32)) (val_main_v0 (F := Ideal) x0) (val_main_cst (F := Ideal))
    reducesTo_S9600x92_S9600_d1 (by decide) h_S_ (ix1 n)]
  refine congrArg (fun f => Finset.fold max negInf f Finset.univ) (funext fun c => congrArg (val_main_v0 (F := Ideal) x0) ?_)
  exact lift_ix n c _

/-- The row maximum, broadcast along the classes, is the specification's `rowMax` of the row. -/
theorem v5_apply (x0 : (⟨S16x600x92, .f32⟩ : BufTy).Contents (Elt Ideal)) (n : Fin 9600) (c : Fin 92) :
    val_main_v5 (F := Ideal) x0 (ix2 n c) = rowMax (fun c' => val_main_v0 (F := Ideal) x0 (ix2 n c')) := by
  rw [val_main_v5_apply, val_main_v4_apply]
  have hi : idx_main_v4 (idx_main_v5 (ix2 n c)) = ix1 n := by
    funext a; match a with | ⟨0, _⟩ => rfl
  rw [hi, val_main_v3_apply, val_main_v2_apply, val_main_cst_0_apply, v1_apply]
  rfl

/-- The shifted exponential at row `n`, class `c`. -/
theorem v7_apply (x0 : (⟨S16x600x92, .f32⟩ : BufTy).Contents (Elt Ideal)) (n : Fin 9600) (c : Fin 92) :
    val_main_v7 (F := Ideal) x0 (ix2 n c) = expRow (fun c' => val_main_v0 (F := Ideal) x0 (ix2 n c')) c := by
  rw [val_main_v7_apply, val_main_v6_apply, v5_apply, Ideal.hostUnary_exp_def, Ideal.subf_def]
  rfl

/-- The row's sum of shifted exponentials. -/
theorem v8_apply (x0 : (⟨S16x600x92, .f32⟩ : BufTy).Contents (Elt Ideal)) (n : Fin 9600) :
    val_main_v8 (F := Ideal) x0 (ix1 n) = ∑ k : Fin 92, expRow (fun c' => val_main_v0 (F := Ideal) x0 (ix2 n c')) k := by
  rw [val_main_v8_apply, val_main_cst_1_apply]
  have hz : (FloatOps.ofBits (F := Ideal) .f32 0x00000000#32 : EReal) = 0 := Ideal.ofBits_zero_f32
  rw [hz, zero_add]
  refine Finset.sum_congr rfl fun k _ => ?_
  have hi : idx_main_v8 (ix1 n) k = ix2 n k := by
    funext a; match a with | ⟨0, _⟩ => rfl | ⟨1, _⟩ => rfl
  rw [hi, v7_apply]

/-- SOFTMAX: the quotient at row `n`, class `c` is the specification's `prob` of the row. -/
theorem v11_apply (x0 : (⟨S16x600x92, .f32⟩ : BufTy).Contents (Elt Ideal)) (n : Fin 9600) (c : Fin 92) :
    val_main_v11 (F := Ideal) x0 (ix2 n c) = prob (fun c' => val_main_v0 (F := Ideal) x0 (ix2 n c')) c := by
  rw [val_main_v11_apply, val_main_v10_apply, val_main_v9_apply]
  have hi : idx_main_v9 (idx_main_v10 (ix2 n c)) = ix1 n := by
    funext a; match a with | ⟨0, _⟩ => rfl
  rw [hi, v8_apply, v7_apply, Ideal.hostDivf_def]
  rfl

/-! ## The class indices -/

/-- INDEX NORMALISATION: a class word below 92 is not negative, so the selected index is the word itself. -/
theorem v17_apply (x3 : (⟨S2400, .i32⟩ : BufTy).Contents (Elt Ideal)) (lab : Fin 2400 → Fin 92)
    (hlab : ∀ q : Fin 2400, x3 (ix1 q) = BitVec.ofNat 32 (lab q).val) (q : Fin 2400) :
    val_main_v17 (F := Ideal) x3 (ix1 q) = BitVec.ofNat 32 (lab q).val := by
  rw [val_main_v17_apply, val_main_v14_apply, val_main_v13_apply, val_main_c_apply, hlab]
  have hlt : (BitVec.ofNat 32 (lab q).val).toNat < 2 ^ 31 := by
    rw [BitVec.toNat_ofNat]; have := (lab q).isLt; omega
  have hne : IntOp.cmpi .slt (BitVec.ofNat 32 (lab q).val) 0#32 ≠ 1#1 := by
    intro h
    have h' := (StableHlo.Predicate.slt_iff_toNat hlt (by decide)).mp h
    exact Nat.not_lt_zero _ h'
  exact if_neg hne

/-! ## The gather -/

/-- THE GATHER READ AT `(n, q)`: axis 0 is the offset coordinate `n`; axis 1 is collapsed and starts at the index word of
    target `q`, read signed and clamped into `[0, 91]` — a class below 92 is its own clamp. -/
theorem v19_apply (x0 : (⟨S16x600x92, .f32⟩ : BufTy).Contents (Elt Ideal)) (x3 : (⟨S2400, .i32⟩ : BufTy).Contents (Elt Ideal))
    (lab : Fin 2400 → Fin 92) (hlab : ∀ q : Fin 2400, x3 (ix1 q) = BitVec.ofNat 32 (lab q).val)
    (n : Fin 9600) (q : Fin 2400) :
    val_main_v19 (F := Ideal) x0 x3 (ix2 n q) = val_main_v11 (F := Ideal) x0 (ix2 n (lab q)) := by
  unfold val_main_v19 Host.gather
  refine congrArg (val_main_v11 (F := Ideal) x0) ?_
  funext a
  refine Fin.ext ?_
  match a with
  | ⟨0, _⟩ =>
    show GatherDims.start _ (ix2 n q) (val_main_v18 (F := Ideal) x3) 0 + GatherDims.batchCoord _ (ix2 n q) 0
      + GatherDims.offCoord _ (ix2 n q) 0 = n.val
    rw [GatherDims.batchCoord_eq_zero _ _ _ List.not_mem_nil]
    unfold GatherDims.start
    rw [dif_neg (by decide)]
    unfold GatherDims.offCoord
    rw [dif_pos (by decide), Nat.zero_add]
    rfl
  | ⟨1, _⟩ =>
    show GatherDims.start _ (ix2 n q) (val_main_v18 (F := Ideal) x3) 1 + GatherDims.batchCoord _ (ix2 n q) 1
      + GatherDims.offCoord _ (ix2 n q) 1 = (lab q).val
    rw [GatherDims.batchCoord_eq_zero _ _ _ List.not_mem_nil,
      GatherDims.offCoord_eq_zero _ _ _ (fun h => ((GatherDims.mem_sKept _ _).mp h).1 (List.mem_singleton.mpr rfl))]
    unfold GatherDims.start
    rw [dif_pos (by decide)]
    have hsi : gather_S9600x92_S2400x1_S9600x2400_0_1_n_n_1_1_96001.siIdx (ix2 n q)
        ⟨List.idxOf (1 : Fin 2) gather_S9600x92_S2400x1_S9600x2400_0_1_n_n_1_1_96001.startIndexMap,
          List.idxOf_lt_length_iff.2 (by decide)⟩ = (ix2 q (0 : Fin 1) : S2400x1.Idx) := by
      funext b; refine Fin.ext ?_
      match b with
      | ⟨0, _⟩ => rfl
      | ⟨1, _⟩ => rfl
    rw [hsi, val_main_v18_apply]
    have hi : idx_main_v18 (ix2 q (0 : Fin 1)) = ix1 q := by
      funext b; match b with | ⟨0, _⟩ => rfl
    rw [hi, v17_apply x3 lab hlab q,
      StableHlo.Predicate.toInt_ofNat_small _ (by have := (lab q).isLt; omega), Int.toNat_natCast]
    show min (lab q).val (92 - 1) + 0 + 0 = (lab q).val
    have := (lab q).isLt
    omega

/-! ## The class term -/

/-- The negated gather at row `n` and target `q`: minus the softmax of row `n` at the target's class, when the label
    words are the classes `lab` (in range, so that the index normalisation and the gather's clamp do nothing). -/
theorem v20_apply (x0 : (⟨S16x600x92, .f32⟩ : BufTy).Contents (Elt Ideal)) (x3 : (⟨S2400, .i32⟩ : BufTy).Contents (Elt Ideal))
    (lab : Fin 2400 → Fin 92) (hlab : ∀ q : Fin 2400, x3 (ix1 q) = BitVec.ofNat 32 (lab q).val)
    (n : Fin 9600) (q : Fin 2400) :
    val_main_v20 (F := Ideal) x0 x3 (ix2 n q) = -(prob (fun c => val_main_v0 (F := Ideal) x0 (ix2 n c)) (lab q)) := by
  rw [val_main_v20_apply, v19_apply x0 x3 lab hlab n q, v11_apply, Ideal.hostNegf_def, Ideal.negf_def]

end Cert.ReferenceIdeal.RefValue

end
-- ==== Proof.RBox.lean ====
/-
  The reference's box terms, first part: the L1 distance, and the two arrays of corner boxes.
-/
import proofs.«408570_j72155450572906_2_alg».proof.Proof.Gen.ReferenceIdeal.Read
import proofs.«408570_j72155450572906_2_alg».proof.Proof.Spec
import Idealize.ShloMosaic.Lib.ValueIdx
import Idealize.ShloMosaic.Lib.Pipeline.Value
import Idealize.ShloMosaic.PureOps.Ideal.Laws

noncomputable section

open scoped BigOperators

namespace Cert.ReferenceIdeal.RefValue

open Idealize.ShloMosaic Idealize.ShloMosaic.ValueIdx Cert.ReferenceIdeal Cert.ReferenceIdeal.Read Cert.Matcher
open Cert.ReferenceIdeal.Facts₀

/-! ## The L1 distance -/

/-- Through the two broadcasts, entry `(n, q, k)` of the widened predictions is entry `(n, k)` of the flattened boxes. -/
private theorem idx_pred (n : Fin 9600) (q : Fin 2400) (k : Fin 4) :
    idx_main_v21 (idx_main_v23 (idx_main_v27 (ix2 n q) k)) = ix2 n k := by
  funext a; match a with | ⟨0, _⟩ => rfl | ⟨1, _⟩ => rfl

/-- … and entry `(n, q, k)` of the widened targets is entry `(q, k)` of the targets. -/
private theorem idx_tgt (n : Fin 9600) (q : Fin 2400) (k : Fin 4) :
    idx_main_v22 (idx_main_v24 (idx_main_v27 (ix2 n q) k)) = ix2 q k := by
  funext a; match a with | ⟨0, _⟩ => rfl | ⟨1, _⟩ => rfl

/-- The summed absolute differences at row `n` and target `q`: the L1 distance of the two centre-extent boxes. -/
theorem v27_apply (x1 : (⟨S16x600x4, .f32⟩ : BufTy).Contents (Elt Ideal)) (x2 : (⟨S2400x4, .f32⟩ : BufTy).Contents (Elt Ideal))
    (n : Fin 9600) (q : Fin 2400) :
    val_main_v27 (F := Ideal) x1 x2 (ix2 n q)
      = l1 (fun k => val_main_v12 (F := Ideal) x1 (ix2 n k)) (fun k => x2 (ix2 q k)) := by
  -- the sum over the four coordinates, from zero, in coordinate order
  rw [val_main_v27_apply, Fin.sum_univ_four]
  simp only [val_main_v26_apply, val_main_v25_apply, val_main_v23_apply, val_main_v24_apply, val_main_v21_apply,
    val_main_v22_apply, idx_pred, idx_tgt]
  show Ideal.ofBits .f32 0x00000000#32 + _ = _
  rw [Ideal.ofBits_zero_f32, zero_add]
  -- each term is |aₖ − tₖ|, the absolute value being max x (−x)
  rfl

/-! ## Four columns side by side -/

/-- Four one-column arrays joined along the column axis, read at row `n`, column `k`: the `k`-th array at row `n`. -/
private theorem cat4_apply {N : Nat} (c0 c1 c2 c3 : (⟨2, ![N, 1]⟩ : Shape).Idx → EReal)
    (h : Shape.Concatenates (([⟨⟨2, ![N, 1]⟩, c0⟩, ⟨⟨2, ![N, 1]⟩, c1⟩, ⟨⟨2, ![N, 1]⟩, c2⟩, ⟨⟨2, ![N, 1]⟩, c3⟩] :
        List ((s : Shape) × (s.Idx → EReal))).map (·.1)) ⟨2, ![N, 4]⟩ 1)
    (n : Fin N) (k : Fin 4) :
    concatenate ⟨2, ![N, 4]⟩ 1 [⟨⟨2, ![N, 1]⟩, c0⟩, ⟨⟨2, ![N, 1]⟩, c1⟩, ⟨⟨2, ![N, 1]⟩, c2⟩, ⟨⟨2, ![N, 1]⟩, c3⟩] h (ix2 n k)
      = (match k with | 0 => c0 | 1 => c1 | 2 => c2 | 3 => c3) (ix2 n 0) := by
  -- off the joined axis the coordinates agree; on it the piece's only column is column 0
  have hi : ∀ b : Fin 2, b ≠ 1 → ((ix2 n (0 : Fin 1) : (⟨2, ![N, 1]⟩ : Shape).Idx) b).val
      = ((ix2 n k : (⟨2, ![N, 4]⟩ : Shape).Idx) b).val := fun b hb =>
    match b, hb with
    | ⟨0, _⟩, _ => rfl
    | ⟨1, _⟩, hb => absurd rfl hb
  match k with
  | 0 => exact concatenate_apply_piece 1 _ h _ 0 (show (0 : Nat) < 4 by decide) _ c0 rfl rfl 0 rfl (ix2 n 0) hi rfl
  | 1 => exact concatenate_apply_piece 1 _ h _ 1 (show (1 : Nat) < 4 by decide) _ c1 rfl rfl 1 rfl (ix2 n 0) hi rfl
  | 2 => exact concatenate_apply_piece 1 _ h _ 2 (show (2 : Nat) < 4 by decide) _ c2 rfl rfl 2 rfl (ix2 n 0) hi rfl
  | 3 => exact concatenate_apply_piece 1 _ h _ 3 (show (3 : Nat) < 4 by decide) _ c3 rfl rfl 3 rfl (ix2 n 0) hi rfl

/-! ## The predictions' corners -/

/-- Column `0` of the flattened prediction boxes, as a vector over the rows. -/
private theorem v29_at (x1 : (⟨S16x600x4, .f32⟩ : BufTy).Contents (Elt Ideal)) (n : Fin 9600) :
    val_main_v29 (F := Ideal) x1 (ix1 n) = val_main_v12 (F := Ideal) x1 (ix2 n 0) := by
  rw [val_main_v29_apply, val_main_v28_apply]
  refine congrArg _ (funext fun a => ?_)
  match a with
  | ⟨0, _⟩ => exact Fin.ext (Nat.div_one _)
  | ⟨1, _⟩ => rfl

/-- Column `1` of the flattened prediction boxes, as a vector over the rows. -/
private theorem v31_at (x1 : (⟨S16x600x4, .f32⟩ : BufTy).Contents (Elt Ideal)) (n : Fin 9600) :
    val_main_v31 (F := Ideal) x1 (ix1 n) = val_main_v12 (F := Ideal) x1 (ix2 n 1) := by
  rw [val_main_v31_apply, val_main_v30_apply]
  refine congrArg _ (funext fun a => ?_)
  match a with
  | ⟨0, _⟩ => exact Fin.ext (Nat.div_one _)
  | ⟨1, _⟩ => rfl

/-- Column `2` of the flattened prediction boxes, as a vector over the rows. -/
private theorem v33_at (x1 : (⟨S16x600x4, .f32⟩ : BufTy).Contents (Elt Ideal)) (n : Fin 9600) :
    val_main_v33 (F := Ideal) x1 (ix1 n) = val_main_v12 (F := Ideal) x1 (ix2 n 2) := by
  rw [val_main_v33_apply, val_main_v32_apply]
  refine congrArg _ (funext fun a => ?_)
  match a with
  | ⟨0, _⟩ => exact Fin.ext (Nat.div_one _)
  | ⟨1, _⟩ => rfl

/-- Column `3` of the flattened prediction boxes, as a vector over the rows. -/
private theorem v35_at (x1 : (⟨S16x600x4, .f32⟩ : BufTy).Contents (Elt Ideal)) (n : Fin 9600) :
    val_main_v35 (F := Ideal) x1 (ix1 n) = val_main_v12 (F := Ideal) x1 (ix2 n 3) := by
  rw [val_main_v35_apply, val_main_v34_apply]
  refine congrArg _ (funext fun a => ?_)
  match a with
  | ⟨0, _⟩ => exact Fin.ext (Nat.div_one _)
  | ⟨1, _⟩ => rfl

/-- The constant one half, at every row. -/
private theorem v36_at (i : S9600.Idx) : val_main_v36 (F := Ideal) i = half := by
  rw [val_main_v36_apply]; rfl

/-- The constant one half, at every row. -/
private theorem v39_at (i : S9600.Idx) : val_main_v39 (F := Ideal) i = half := by
  rw [val_main_v39_apply]; rfl

/-- The constant one half, at every row. -/
private theorem v42_at (i : S9600.Idx) : val_main_v42 (F := Ideal) i = half := by
  rw [val_main_v42_apply]; rfl

/-- The constant one half, at every row. -/
private theorem v45_at (i : S9600.Idx) : val_main_v45 (F := Ideal) i = half := by
  rw [val_main_v45_apply]; rfl

/-- The low corner along axis `0`: centre minus half the extent. -/
private theorem v38_at (x1 : (⟨S16x600x4, .f32⟩ : BufTy).Contents (Elt Ideal)) (n : Fin 9600) :
    val_main_v38 (F := Ideal) x1 (ix1 n)
      = lo (val_main_v12 (F := Ideal) x1 (ix2 n 0)) (val_main_v12 (F := Ideal) x1 (ix2 n 2)) := by
  rw [val_main_v38_apply, val_main_v37_apply, v29_at, v33_at, v36_at]; rfl

/-- The low corner along axis `1`: centre minus half the extent. -/
private theorem v41_at (x1 : (⟨S16x600x4, .f32⟩ : BufTy).Contents (Elt Ideal)) (n : Fin 9600) :
    val_main_v41 (F := Ideal) x1 (ix1 n)
      = lo (val_main_v12 (F := Ideal) x1 (ix2 n 1)) (val_main_v12 (F := Ideal) x1 (ix2 n 3)) := by
  rw [val_main_v41_apply, val_main_v40_apply, v31_at, v35_at, v39_at]; rfl

/-- The high corner along axis `0`: centre plus half the extent. -/
private theorem v44_at (x1 : (⟨S16x600x4, .f32⟩ : BufTy).Contents (Elt Ideal)) (n : Fin 9600) :
    val_main_v44 (F := Ideal) x1 (ix1 n)
      = hi (val_main_v12 (F := Ideal) x1 (ix2 n 0)) (val_main_v12 (F := Ideal) x1 (ix2 n 2)) := by
  rw [val_main_v44_apply, val_main_v43_apply, v29_at, v33_at, v42_at]; rfl

/-- The high corner along axis `1`: centre plus half the extent. -/
private theorem v47_at (x1 : (⟨S16x600x4, .f32⟩ : BufTy).Contents (Elt Ideal)) (n : Fin 9600) :
    val_main_v47 (F := Ideal) x1 (ix1 n)
      = hi (val_main_v12 (F := Ideal) x1 (ix2 n 1)) (val_main_v12 (F := Ideal) x1 (ix2 n 3)) := by
  rw [val_main_v47_apply, val_main_v46_apply, v31_at, v35_at, v45_at]; rfl

/-- The corner vector as a one-column array. -/
private theorem v48_at (x1 : (⟨S16x600x4, .f32⟩ : BufTy).Contents (Elt Ideal)) (n : Fin 9600) :
    val_main_v48 (F := Ideal) x1 (ix2 n 0) = val_main_v38 (F := Ideal) x1 (ix1 n) := by
  rw [val_main_v48_apply]
  exact congrArg _ (funext fun a => match a with | ⟨0, _⟩ => rfl)

/-- The corner vector as a one-column array. -/
private theorem v49_at (x1 : (⟨S16x600x4, .f32⟩ : BufTy).Contents (Elt Ideal)) (n : Fin 9600) :
    val_main_v49 (F := Ideal) x1 (ix2 n 0) = val_main_v41 (F := Ideal) x1 (ix1 n) := by
  rw [val_main_v49_apply]
  exact congrArg _ (funext fun a => match a with | ⟨0, _⟩ => rfl)

/-- The corner vector as a one-column array. -/
private theorem v50_at (x1 : (⟨S16x600x4, .f32⟩ : BufTy).Contents (Elt Ideal)) (n : Fin 9600) :
    val_main_v50 (F := Ideal) x1 (ix2 n 0) = val_main_v44 (F := Ideal) x1 (ix1 n) := by
  rw [val_main_v50_apply]
  exact congrArg _ (funext fun a => match a with | ⟨0, _⟩ => rfl)

/-- The corner vector as a one-column array. -/
private theorem v51_at (x1 : (⟨S16x600x4, .f32⟩ : BufTy).Contents (Elt Ideal)) (n : Fin 9600) :
    val_main_v51 (F := Ideal) x1 (ix2 n 0) = val_main_v47 (F := Ideal) x1 (ix1 n) := by
  rw [val_main_v51_apply]
  exact congrArg _ (funext fun a => match a with | ⟨0, _⟩ => rfl)

/-- The predictions' corner boxes: row `n` is the corners of row `n` of the flattened prediction boxes. -/
theorem v52_apply (x1 : (⟨S16x600x4, .f32⟩ : BufTy).Contents (Elt Ideal)) (n : Fin 9600) (k : Fin 4) :
    val_main_v52 (F := Ideal) x1 (ix2 n k) = corners (fun j => val_main_v12 (F := Ideal) x1 (ix2 n j)) k := by
  unfold val_main_v52
  refine (cat4_apply _ _ _ _ _ n k).trans ?_
  match k with
  | 0 => show val_main_v48 (F := Ideal) x1 (ix2 n 0) = _; rw [v48_at, v38_at]; rfl
  | 1 => show val_main_v49 (F := Ideal) x1 (ix2 n 0) = _; rw [v49_at, v41_at]; rfl
  | 2 => show val_main_v50 (F := Ideal) x1 (ix2 n 0) = _; rw [v50_at, v44_at]; rfl
  | 3 => show val_main_v51 (F := Ideal) x1 (ix2 n 0) = _; rw [v51_at, v47_at]; rfl

/-! ## The targets' corners -/

/-- Column `0` of the target boxes, as a vector over the targets. -/
private theorem v54_at (x2 : (⟨S2400x4, .f32⟩ : BufTy).Contents (Elt Ideal)) (q : Fin 2400) :
    val_main_v54 (F := Ideal) x2 (ix1 q) = x2 (ix2 q 0) := by
  rw [val_main_v54_apply, val_main_v53_apply]
  refine congrArg _ (funext fun a => ?_)
  match a with
  | ⟨0, _⟩ => exact Fin.ext (Nat.div_one _)
  | ⟨1, _⟩ => rfl

/-- Column `1` of the target boxes, as a vector over the targets. -/
private theorem v56_at (x2 : (⟨S2400x4, .f32⟩ : BufTy).Contents (Elt Ideal)) (q : Fin 2400) :
    val_main_v56 (F := Ideal) x2 (ix1 q) = x2 (ix2 q 1) := by
  rw [val_main_v56_apply, val_main_v55_apply]
  refine congrArg _ (funext fun a => ?_)
  match a with
  | ⟨0, _⟩ => exact Fin.ext (Nat.div_one _)
  | ⟨1, _⟩ => rfl

/-- Column `2` of the target boxes, as a vector over the targets. -/
private theorem v58_at (x2 : (⟨S2400x4, .f32⟩ : BufTy).Contents (Elt Ideal)) (q : Fin 2400) :
    val_main_v58 (F := Ideal) x2 (ix1 q) = x2 (ix2 q 2) := by
  rw [val_main_v58_apply, val_main_v57_apply]
  refine congrArg _ (funext fun a => ?_)
  match a with
  | ⟨0, _⟩ => exact Fin.ext (Nat.div_one _)
  | ⟨1, _⟩ => rfl

/-- Column `3` of the target boxes, as a vector over the targets. -/
private theorem v60_at (x2 : (⟨S2400x4, .f32⟩ : BufTy).Contents (Elt Ideal)) (q : Fin 2400) :
    val_main_v60 (F := Ideal) x2 (ix1 q) = x2 (ix2 q 3) := by
  rw [val_main_v60_apply, val_main_v59_apply]
  refine congrArg _ (funext fun a => ?_)
  match a with
  | ⟨0, _⟩ => exact Fin.ext (Nat.div_one _)
  | ⟨1, _⟩ => rfl

/-- The constant one half, at every target. -/
private theorem v61_at (i : S2400.Idx) : val_main_v61 (F := Ideal) i = half := by
  rw [val_main_v61_apply]; rfl

/-- The constant one half, at every target. -/
private theorem v64_at (i : S2400.Idx) : val_main_v64 (F := Ideal) i = half := by
  rw [val_main_v64_apply]; rfl

/-- The constant one half, at every target. -/
private theorem v67_at (i : S2400.Idx) : val_main_v67 (F := Ideal) i = half := by
  rw [val_main_v67_apply]; rfl

/-- The constant one half, at every target. -/
private theorem v70_at (i : S2400.Idx) : val_main_v70 (F := Ideal) i = half := by
  rw [val_main_v70_apply]; rfl

/-- The low corner along axis `0`: centre minus half the extent. -/
private theorem v63_at (x2 : (⟨S2400x4, .f32⟩ : BufTy).Contents (Elt Ideal)) (q : Fin 2400) :
    val_main_v63 (F := Ideal) x2 (ix1 q) = lo (x2 (ix2 q 0)) (x2 (ix2 q 2)) := by
  rw [val_main_v63_apply, val_main_v62_apply, v54_at, v58_at, v61_at]; rfl

/-- The low corner along axis `1`: centre minus half the extent. -/
private theorem v66_at (x2 : (⟨S2400x4, .f32⟩ : BufTy).Contents (Elt Ideal)) (q : Fin 2400) :
    val_main_v66 (F := Ideal) x2 (ix1 q) = lo (x2 (ix2 q 1)) (x2 (ix2 q 3)) := by
  rw [val_main_v66_apply, val_main_v65_apply, v56_at, v60_at, v64_at]; rfl

/-- The high corner along axis `0`: centre plus half the extent. -/
private theorem v69_at (x2 : (⟨S2400x4, .f32⟩ : BufTy).Contents (Elt Ideal)) (q : Fin 2400) :
    val_main_v69 (F := Ideal) x2 (ix1 q) = hi (x2 (ix2 q 0)) (x2 (ix2 q 2)) := by
  rw [val_main_v69_apply, val_main_v68_apply, v54_at, v58_at, v67_at]; rfl

/-- The high corner along axis `1`: centre plus half the extent. -/
private theorem v72_at (x2 : (⟨S2400x4, .f32⟩ : BufTy).Contents (Elt Ideal)) (q : Fin 2400) :
    val_main_v72 (F := Ideal) x2 (ix1 q) = hi (x2 (ix2 q 1)) (x2 (ix2 q 3)) := by
  rw [val_main_v72_apply, val_main_v71_apply, v56_at, v60_at, v70_at]; rfl

/-- The corner vector as a one-column array. -/
private theorem v73_at (x2 : (⟨S2400x4, .f32⟩ : BufTy).Contents (Elt Ideal)) (q : Fin 2400) :
    val_main_v73 (F := Ideal) x2 (ix2 q 0) = val_main_v63 (F := Ideal) x2 (ix1 q) := by
  rw [val_main_v73_apply]
  exact congrArg _ (funext fun a => match a with | ⟨0, _⟩ => rfl)

/-- The corner vector as a one-column array. -/
private theorem v74_at (x2 : (⟨S2400x4, .f32⟩ : BufTy).Contents (Elt Ideal)) (q : Fin 2400) :
    val_main_v74 (F := Ideal) x2 (ix2 q 0) = val_main_v66 (F := Ideal) x2 (ix1 q) := by
  rw [val_main_v74_apply]
  exact congrArg _ (funext fun a => match a with | ⟨0, _⟩ => rfl)

/-- The corner vector as a one-column array. -/
private theorem v75_at (x2 : (⟨S2400x4, .f32⟩ : BufTy).Contents (Elt Ideal)) (q : Fin 2400) :
    val_main_v75 (F := Ideal) x2 (ix2 q 0) = val_main_v69 (F := Ideal) x2 (ix1 q) := by
  rw [val_main_v75_apply]
  exact congrArg _ (funext fun a => match a with | ⟨0, _⟩ => rfl)

/-- The corner vector as a one-column array. -/
private theorem v76_at (x2 : (⟨S2400x4, .f32⟩ : BufTy).Contents (Elt Ideal)) (q : Fin 2400) :
    val_main_v76 (F := Ideal) x2 (ix2 q 0) = val_main_v72 (F := Ideal) x2 (ix1 q) := by
  rw [val_main_v76_apply]
  exact congrArg _ (funext fun a => match a with | ⟨0, _⟩ => rfl)

/-- The targets' corner boxes. -/
theorem v77_apply (x2 : (⟨S2400x4, .f32⟩ : BufTy).Contents (Elt Ideal)) (q : Fin 2400) (k : Fin 4) :
    val_main_v77 (F := Ideal) x2 (ix2 q k) = corners (fun j => x2 (ix2 q j)) k := by
  unfold val_main_v77
  refine (cat4_apply _ _ _ _ _ q k).trans ?_
  match k with
  | 0 => show val_main_v73 (F := Ideal) x2 (ix2 q 0) = _; rw [v73_at, v63_at]; rfl
  | 1 => show val_main_v74 (F := Ideal) x2 (ix2 q 0) = _; rw [v74_at, v66_at]; rfl
  | 2 => show val_main_v75 (F := Ideal) x2 (ix2 q 0) = _; rw [v75_at, v69_at]; rfl
  | 3 => show val_main_v76 (F := Ideal) x2 (ix2 q 0) = _; rw [v76_at, v72_at]; rfl

end Cert.ReferenceIdeal.RefValue

end
-- ==== Proof.RGiou.lean ====
/-
  The reference's box terms, second part: the negated generalized intersection over union, from the two arrays of
  corner boxes.
-/
import proofs.«408570_j72155450572906_2_alg».proof.Proof.Gen.ReferenceIdeal.Read
import proofs.«408570_j72155450572906_2_alg».proof.Proof.Spec
import Idealize.ShloMosaic.Lib.ValueIdx
import Idealize.ShloMosaic.Lib.Pipeline.Value
import Idealize.ShloMosaic.PureOps.Ideal.Laws

noncomputable section

open scoped BigOperators

namespace Cert.ReferenceIdeal.RefValue

open Idealize.ShloMosaic Idealize.ShloMosaic.ValueIdx Cert.ReferenceIdeal Cert.ReferenceIdeal.Read Cert.Matcher
open Cert.ReferenceIdeal.Facts₀

/-! ## Which box coordinate a side reads

  Side `c` (0: horizontal, 1: vertical) of a rectangle built from two corner boxes reads the low corner's coordinate
  `c` and the high corner's coordinate `2 + c`. -/

/-- Coordinate `c` of the low corner. -/
abbrev loK (c : Fin 2) : Fin 4 := ⟨c.val, Nat.lt_trans c.isLt (by decide)⟩
/-- Coordinate `c` of the high corner. -/
abbrev hiK (c : Fin 2) : Fin 4 := ⟨2 + c.val, by have := c.isLt; omega⟩

/-! ## The indices the layout operations compose to

  Every slice, reshape and broadcast on the way reads its operand at an index computed from the result's; composed,
  they read the corner boxes at row `n` (or target `q`) and one fixed coordinate. -/

section indices
variable (n : Fin 9600) (q : Fin 2400) (c : Fin 2)

theorem idx_p2 : idx_main_v78 (idx_main_v79 (ix1 n)) = ix2 n 2 := by
  funext a; match a with | ⟨0, _⟩ => exact Fin.ext (Nat.div_one _) | ⟨1, _⟩ => rfl
theorem idx_p0 : idx_main_v80 (idx_main_v81 (ix1 n)) = ix2 n 0 := by
  funext a; match a with | ⟨0, _⟩ => exact Fin.ext (Nat.div_one _) | ⟨1, _⟩ => rfl
theorem idx_p3 : idx_main_v83 (idx_main_v84 (ix1 n)) = ix2 n 3 := by
  funext a; match a with | ⟨0, _⟩ => exact Fin.ext (Nat.div_one _) | ⟨1, _⟩ => rfl
theorem idx_p1 : idx_main_v85 (idx_main_v86 (ix1 n)) = ix2 n 1 := by
  funext a; match a with | ⟨0, _⟩ => exact Fin.ext (Nat.div_one _) | ⟨1, _⟩ => rfl

theorem idx_t2 : idx_main_v89 (idx_main_v90 (ix1 q)) = ix2 q 2 := by
  funext a; match a with | ⟨0, _⟩ => exact Fin.ext (Nat.div_one _) | ⟨1, _⟩ => rfl
theorem idx_t0 : idx_main_v91 (idx_main_v92 (ix1 q)) = ix2 q 0 := by
  funext a; match a with | ⟨0, _⟩ => exact Fin.ext (Nat.div_one _) | ⟨1, _⟩ => rfl
theorem idx_t3 : idx_main_v94 (idx_main_v95 (ix1 q)) = ix2 q 3 := by
  funext a; match a with | ⟨0, _⟩ => exact Fin.ext (Nat.div_one _) | ⟨1, _⟩ => rfl
theorem idx_t1 : idx_main_v96 (idx_main_v97 (ix1 q)) = ix2 q 1 := by
  funext a; match a with | ⟨0, _⟩ => exact Fin.ext (Nat.div_one _) | ⟨1, _⟩ => rfl

/-- The intersection's sides: low corners … -/
theorem idx_i_loP : idx_main_v100 (idx_main_v101 (idx_main_v104 (ix3 n q c))) = ix2 n (loK c) := by
  funext a; match a with | ⟨0, _⟩ => rfl | ⟨1, _⟩ => rfl
theorem idx_i_loT : idx_main_v102 (idx_main_v103 (idx_main_v105 (ix3 n q c))) = ix2 q (loK c) := by
  funext a; match a with | ⟨0, _⟩ => rfl | ⟨1, _⟩ => rfl
/-- … and high corners. -/
theorem idx_i_hiP : idx_main_v107 (idx_main_v108 (idx_main_v111 (ix3 n q c))) = ix2 n (hiK c) := by
  funext a; match a with | ⟨0, _⟩ => rfl | ⟨1, _⟩ => rfl
theorem idx_i_hiT : idx_main_v109 (idx_main_v110 (idx_main_v112 (ix3 n q c))) = ix2 q (hiK c) := by
  funext a; match a with | ⟨0, _⟩ => rfl | ⟨1, _⟩ => rfl

/-- The enclosing rectangle's sides: low corners … -/
theorem idx_e_loP : idx_main_v128 (idx_main_v129 (idx_main_v132 (ix3 n q c))) = ix2 n (loK c) := by
  funext a; match a with | ⟨0, _⟩ => rfl | ⟨1, _⟩ => rfl
theorem idx_e_loT : idx_main_v130 (idx_main_v131 (idx_main_v133 (ix3 n q c))) = ix2 q (loK c) := by
  funext a; match a with | ⟨0, _⟩ => rfl | ⟨1, _⟩ => rfl
/-- … and high corners. -/
theorem idx_e_hiP : idx_main_v135 (idx_main_v136 (idx_main_v139 (ix3 n q c))) = ix2 n (hiK c) := by
  funext a; match a with | ⟨0, _⟩ => rfl | ⟨1, _⟩ => rfl
theorem idx_e_hiT : idx_main_v137 (idx_main_v138 (idx_main_v140 (ix3 n q c))) = ix2 q (hiK c) := by
  funext a; match a with | ⟨0, _⟩ => rfl | ⟨1, _⟩ => rfl

/-- A pair `(n, q)` reads side 0 and side 1 of the `[9600, 2400, 2]` array of sides. -/
theorem idx_i_s0 : idx_main_v116 (idx_main_v117 (ix2 n q)) = ix3 n q 0 := by
  have hq := q.isLt
  funext a
  match a with
  | ⟨0, _⟩ => exact Fin.ext (by show (n.val * 2400 + q.val) / 2400 = n.val; omega)
  | ⟨1, _⟩ => exact Fin.ext (by show (n.val * 2400 + q.val) / 1 % 2400 = q.val; omega)
  | ⟨2, _⟩ => rfl
theorem idx_i_s1 : idx_main_v118 (idx_main_v119 (ix2 n q)) = ix3 n q 1 := by
  have hq := q.isLt
  funext a
  match a with
  | ⟨0, _⟩ => exact Fin.ext (by show (n.val * 2400 + q.val) / 2400 = n.val; omega)
  | ⟨1, _⟩ => exact Fin.ext (by show (n.val * 2400 + q.val) / 1 % 2400 = q.val; omega)
  | ⟨2, _⟩ => rfl
theorem idx_e_s0 : idx_main_v144 (idx_main_v145 (ix2 n q)) = ix3 n q 0 := by
  have hq := q.isLt
  funext a
  match a with
  | ⟨0, _⟩ => exact Fin.ext (by show (n.val * 2400 + q.val) / 2400 = n.val; omega)
  | ⟨1, _⟩ => exact Fin.ext (by show (n.val * 2400 + q.val) / 1 % 2400 = q.val; omega)
  | ⟨2, _⟩ => rfl
theorem idx_e_s1 : idx_main_v146 (idx_main_v147 (ix2 n q)) = ix3 n q 1 := by
  have hq := q.isLt
  funext a
  match a with
  | ⟨0, _⟩ => exact Fin.ext (by show (n.val * 2400 + q.val) / 2400 = n.val; omega)
  | ⟨1, _⟩ => exact Fin.ext (by show (n.val * 2400 + q.val) / 1 % 2400 = q.val; omega)
  | ⟨2, _⟩ => rfl

/-- The two areas, broadcast over the pairs. -/
theorem idx_u_p : idx_main_v121 (idx_main_v123 (ix2 n q)) = ix1 n := by
  funext a; match a with | ⟨0, _⟩ => rfl
theorem idx_u_t : idx_main_v122 (idx_main_v124 (ix2 n q)) = ix1 q := by
  funext a; match a with | ⟨0, _⟩ => rfl

end indices

/-! ## The stages -/

section stages
variable (x1 : (⟨S16x600x4, .f32⟩ : BufTy).Contents (Elt Ideal)) (x2 : (⟨S2400x4, .f32⟩ : BufTy).Contents (Elt Ideal))
  (n : Fin 9600) (q : Fin 2400)

/-- The area of prediction box `n`. -/
theorem v88_at : val_main_v88 (F := Ideal) x1 (ix1 n) = areaC (fun k => val_main_v52 (F := Ideal) x1 (ix2 n k)) := by
  rw [val_main_v88_apply, val_main_v82_apply, val_main_v87_apply, val_main_v79_apply, val_main_v81_apply,
    val_main_v84_apply, val_main_v86_apply, val_main_v78_apply, val_main_v80_apply, val_main_v83_apply,
    val_main_v85_apply, idx_p2, idx_p0, idx_p3, idx_p1]
  rfl

/-- The area of target box `q`. -/
theorem v99_at : val_main_v99 (F := Ideal) x2 (ix1 q) = areaC (fun k => val_main_v77 (F := Ideal) x2 (ix2 q k)) := by
  rw [val_main_v99_apply, val_main_v93_apply, val_main_v98_apply, val_main_v90_apply, val_main_v92_apply,
    val_main_v95_apply, val_main_v97_apply, val_main_v89_apply, val_main_v91_apply, val_main_v94_apply,
    val_main_v96_apply, idx_t2, idx_t0, idx_t3, idx_t1]
  rfl

/-- Side `c` of the intersection, clipped at zero: the smaller high corner less the larger low corner. -/
theorem v115_at (c : Fin 2) : val_main_v115 (F := Ideal) x1 x2 (ix3 n q c)
    = max (min (val_main_v52 (F := Ideal) x1 (ix2 n (hiK c))) (val_main_v77 (F := Ideal) x2 (ix2 q (hiK c)))
          - max (val_main_v52 (F := Ideal) x1 (ix2 n (loK c))) (val_main_v77 (F := Ideal) x2 (ix2 q (loK c)))) zero := by
  rw [val_main_v115_apply, val_main_v114_apply, val_main_v113_apply, val_main_v106_apply, val_main_v111_apply,
    val_main_v112_apply, val_main_v104_apply, val_main_v105_apply, val_main_v108_apply, val_main_v110_apply,
    val_main_v101_apply, val_main_v103_apply, val_main_v107_apply, val_main_v109_apply, val_main_v100_apply,
    val_main_v102_apply, val_main_call0_v1_apply, val_main_call0_v0_apply, val_main_cst_12_apply,
    idx_i_hiP, idx_i_hiT, idx_i_loP, idx_i_loT]
  exact max_comm _ _

/-- Side `c` of the smallest enclosing rectangle, clipped at zero: the larger high corner less the smaller low one. -/
theorem v143_at (c : Fin 2) : val_main_v143 (F := Ideal) x1 x2 (ix3 n q c)
    = max (max (val_main_v52 (F := Ideal) x1 (ix2 n (hiK c))) (val_main_v77 (F := Ideal) x2 (ix2 q (hiK c)))
          - min (val_main_v52 (F := Ideal) x1 (ix2 n (loK c))) (val_main_v77 (F := Ideal) x2 (ix2 q (loK c)))) zero := by
  rw [val_main_v143_apply, val_main_v142_apply, val_main_v141_apply, val_main_v134_apply, val_main_v139_apply,
    val_main_v140_apply, val_main_v132_apply, val_main_v133_apply, val_main_v136_apply, val_main_v138_apply,
    val_main_v129_apply, val_main_v131_apply, val_main_v135_apply, val_main_v137_apply, val_main_v128_apply,
    val_main_v130_apply, val_main_call1_v1_apply, val_main_call1_v0_apply, val_main_cst_13_apply,
    idx_e_hiP, idx_e_hiT, idx_e_loP, idx_e_loT]
  exact max_comm _ _

/-- The intersection's area. -/
theorem v120_at : val_main_v120 (F := Ideal) x1 x2 (ix2 n q)
    = interC (fun k => val_main_v52 (F := Ideal) x1 (ix2 n k)) (fun k => val_main_v77 (F := Ideal) x2 (ix2 q k)) := by
  rw [val_main_v120_apply, val_main_v117_apply, val_main_v119_apply, val_main_v116_apply, val_main_v118_apply,
    idx_i_s0, idx_i_s1, v115_at, v115_at]
  rfl

/-- The enclosing rectangle's area. -/
theorem v148_at : val_main_v148 (F := Ideal) x1 x2 (ix2 n q)
    = encloseC (fun k => val_main_v52 (F := Ideal) x1 (ix2 n k)) (fun k => val_main_v77 (F := Ideal) x2 (ix2 q k)) := by
  rw [val_main_v148_apply, val_main_v145_apply, val_main_v147_apply, val_main_v144_apply, val_main_v146_apply,
    idx_e_s0, idx_e_s1, v143_at, v143_at]
  rfl

/-- The union's area: the two areas together, less the intersection. -/
theorem v126_at : val_main_v126 (F := Ideal) x1 x2 (ix2 n q)
    = unionC (fun k => val_main_v52 (F := Ideal) x1 (ix2 n k)) (fun k => val_main_v77 (F := Ideal) x2 (ix2 q k)) := by
  rw [val_main_v126_apply, val_main_v125_apply, val_main_v123_apply, val_main_v124_apply, val_main_v121_apply,
    val_main_v122_apply, idx_u_p, idx_u_t, v88_at, v99_at, v120_at]
  rfl

end stages

/-- The negated GIoU at row `n` and target `q`, over the corner boxes the program has built. -/
theorem v152_of_corners (x1 : (⟨S16x600x4, .f32⟩ : BufTy).Contents (Elt Ideal)) (x2 : (⟨S2400x4, .f32⟩ : BufTy).Contents (Elt Ideal))
    (n : Fin 9600) (q : Fin 2400) :
    val_main_v152 (F := Ideal) x1 x2 (ix2 n q)
      = -(giouC (fun k => val_main_v52 (F := Ideal) x1 (ix2 n k)) (fun k => val_main_v77 (F := Ideal) x2 (ix2 q k))) := by
  rw [val_main_v152_apply, val_main_v151_apply, val_main_v127_apply, val_main_v150_apply, val_main_v149_apply,
    v120_at, v126_at, v148_at]
  rfl

end Cert.ReferenceIdeal.RefValue

end
-- ==== Proof.RefValue.lean ====
/-
  The reference's result, as the cost matrix.

  Its last lines add the three terms, each multiplied by the weight `1`: the L1 distance, the negated class probability and
  the negated GIoU.  A product with `1` is the factor itself, and `−x = 0 − x`, so the sum is the matching cost.
-/
import proofs.«408570_j72155450572906_2_alg».proof.Proof.Gen.ReferenceIdeal.Read
import proofs.«408570_j72155450572906_2_alg».proof.Proof.Spec
import proofs.«408570_j72155450572906_2_alg».proof.Proof.RClass
import proofs.«408570_j72155450572906_2_alg».proof.Proof.RBox
import proofs.«408570_j72155450572906_2_alg».proof.Proof.RGiou
import Idealize.ShloMosaic.Lib.ValueIdx
import Idealize.ShloMosaic.Lib.Pipeline.Value
import Idealize.ShloMosaic.PureOps.Ideal.Laws

noncomputable section

open scoped BigOperators

namespace Cert.ReferenceIdeal.RefValue

open Idealize.ShloMosaic Idealize.ShloMosaic.ValueIdx Cert.ReferenceIdeal Cert.ReferenceIdeal.Read Cert.Matcher

/-- The weight word denotes `1`. -/
theorem ofBits_one_f32 : Ideal.ofBits .f32 0x3F800000#32 = 1 := by
  simp [Ideal.ofBits, Ideal.ieee, -EReal.coe_mul]; norm_num

/-- The negated GIoU at row `n` and target `q`, over the centre-extent boxes. -/
theorem v152_apply (x1 : (⟨S16x600x4, .f32⟩ : BufTy).Contents (Elt Ideal)) (x2 : (⟨S2400x4, .f32⟩ : BufTy).Contents (Elt Ideal))
    (n : Fin 9600) (q : Fin 2400) :
    val_main_v152 (F := Ideal) x1 x2 (ix2 n q)
      = -(giou (fun k => val_main_v12 (F := Ideal) x1 (ix2 n k)) (fun k => x2 (ix2 q k))) := by
  rw [v152_of_corners]
  unfold giou
  congr 2
  · funext k; exact v52_apply x1 n k
  · funext k; exact v77_apply x2 q k

/-- THE REFERENCE'S MATRIX is the cost matrix of the flattened logits and boxes, the target boxes and the classes. -/
theorem ref_cost (x0 : (⟨S16x600x92, .f32⟩ : BufTy).Contents (Elt Ideal)) (x1 : (⟨S16x600x4, .f32⟩ : BufTy).Contents (Elt Ideal))
    (x2 : (⟨S2400x4, .f32⟩ : BufTy).Contents (Elt Ideal)) (x3 : (⟨S2400, .i32⟩ : BufTy).Contents (Elt Ideal))
    (lab : Fin 2400 → Fin 92) (hlab : ∀ q : Fin 2400, x3 (ix1 q) = BitVec.ofNat 32 (lab q).val) :
    val_main_v160 (F := Ideal) x0 x1 x2 x3
      = cost2 (val_main_v0 (F := Ideal) x0) (val_main_v12 (F := Ideal) x1) x2 lab := by
  funext i
  obtain ⟨n, q, rfl⟩ : ∃ (n : Fin 9600) (q : Fin 2400), i = ix2 n q := ⟨i 0, i 1, eq_ix2 i⟩
  rw [val_main_v160_apply, val_main_v157_apply, val_main_v154_apply, val_main_v156_apply, val_main_v159_apply,
    val_main_v153_apply, val_main_v155_apply, val_main_v158_apply, val_main_cst_14_apply, val_main_cst_15_apply,
    val_main_cst_16_apply, v27_apply, v20_apply x0 x3 lab hlab, v152_apply]
  simp only [Ideal.ofBits_def, Ideal.addf_def, Ideal.mulf_def, ofBits_one_f32, one_mul]
  unfold cost2 costAt
  simp only [zero, Ideal.ofBits_zero_f32, zero_sub]

end Cert.ReferenceIdeal.RefValue

end
-- ==== Proof.lean ====
/-
  The certificate of the matching-cost kernel against its jnp reference, over the extended reals.

  Both programs compute, for every prediction row `n` and target `q`, the cost
  `‖a − t‖₁ − softmax(x)ₗ − GIoU(a, t)` (Proof/Spec.lean).  The kernel takes the class probability by a product with the
  one-hot matrix of the labels, the reference by a gather at the label; the two agree when every label is a class,
  `0 ≤ l < 92`, which is the precondition's last conjunct (Proof/Labels.lean).  No law used needs the inputs finite:
  a product with `0` or `1`, `0 − x = −x`, `0 + x = x` and the order of a sum hold on all extended reals.

  The kernel side: the body's stored block read at an index (Proof/KSoftmax.lean, Proof/KernelBody.lean), the arrays the
  host lines build before the region (Proof/KHost.lean), and the blocks laid over the array with the host line after the
  region (Proof/KValue.lean).  The reference side: its stages read at an index (Proof/RClass.lean, Proof/RBox.lean,
  Proof/RGiou.lean) and summed (Proof/RefValue.lean).
-/
import proofs.«408570_j72155450572906_2_alg».proof.Defs
import proofs.«408570_j72155450572906_2_alg».proof.Proof.Gen.Kernel
import proofs.«408570_j72155450572906_2_alg».proof.Proof.Gen.Kernel.Skeleton
import proofs.«408570_j72155450572906_2_alg».proof.Proof.Gen.Kernel.Launch
import proofs.«408570_j72155450572906_2_alg».proof.Proof.Gen.Kernel.Points
import proofs.«408570_j72155450572906_2_alg».proof.Proof.Gen.Kernel.Frame
import proofs.«408570_j72155450572906_2_alg».proof.Proof.Gen.KernelIdeal
import proofs.«408570_j72155450572906_2_alg».proof.Proof.Gen.KernelIdeal.Skeleton
import proofs.«408570_j72155450572906_2_alg».proof.Proof.Gen.KernelIdeal.Launch
import proofs.«408570_j72155450572906_2_alg».proof.Proof.Gen.KernelIdeal.Points
import proofs.«408570_j72155450572906_2_alg».proof.Proof.Gen.KernelIdeal.Frame
import proofs.«408570_j72155450572906_2_alg».proof.Proof.Gen.ReferenceIdeal
import proofs.«408570_j72155450572906_2_alg».proof.Proof.Gen.Pre_finite_inputs
import proofs.«408570_j72155450572906_2_alg».proof.Proof.Gen.ReferenceIdeal.Run
import proofs.«408570_j72155450572906_2_alg».proof.Proof.Gen.ReferenceIdeal.Read
import proofs.«408570_j72155450572906_2_alg».proof.Proof.Spec
import proofs.«408570_j72155450572906_2_alg».proof.Proof.Labels
import proofs.«408570_j72155450572906_2_alg».proof.Proof.KValue
import proofs.«408570_j72155450572906_2_alg».proof.Proof.RefValue
import Idealize.ShloMosaic.Adequacy
import Idealize.ShloMosaic.Init

noncomputable section

namespace Cert.Proof

open Idealize.ShloMosaic Idealize.ShloMosaic.TcCoe Idealize.SL.Sem Idealize.ShloMosaic.ValueIdx Cert.Matcher

theorem frame_p : Cert.frame_Kernel := fun m ρ _ => Cert.Kernel.Gen.frame m ρ
theorem frame_pi : Cert.frame_KernelIdeal := fun m ρ _ => Cert.KernelIdeal.Gen.frame m ρ
/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the cost matrix of the same arguments, laid out as `[16, 600, 2400]`. -/
theorem algebraic : Cert.algebraic_KernelIdeal_ReferenceIdeal := by
  intro m ρ m' ρ' hpre hagree
  -- the classes the label words denote
  have hlab : ∀ (c : Dev Cert.KernelIdeal.nD) (q : Fin 2400),
      m ((c.tc : Thread Cert.KernelIdeal.nD Cert.KernelIdeal.τ).loc Cert.KernelIdeal.main_arg3) (ix1 q)
        = BitVec.ofNat 32 (labOf (m ((c.tc : Thread Cert.KernelIdeal.nD Cert.KernelIdeal.τ).loc Cert.KernelIdeal.main_arg3)) q).val :=
    fun c q => label_eq _ _ _ _ (hpre c) q
  refine ⟨_, Cert.KernelIdeal.CostValue.run m ρ
    (fun c => labOf (m ((c.tc : Thread Cert.KernelIdeal.nD Cert.KernelIdeal.τ).loc Cert.KernelIdeal.main_arg3))) hlab, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v161_eq, (hagree c).1, (hagree c).2.1, (hagree c).2.2.1, (hagree c).2.2.2]
  unfold Cert.ReferenceIdeal.Read.val_main_v161
  rw [Cert.ReferenceIdeal.RefValue.ref_cost _ _ _ _ _ (hlab c)]
  rfl

theorem claim : Cert.Claim := ⟨Cert.Kernel.Gen.facts, Cert.KernelIdeal.Gen.facts, Cert.ReferenceIdeal.Gen.facts, Cert.Pre_finite_inputs.Gen.facts,
  frame_p, frame_pi, frame_ri, trivial, algebraic⟩

end Cert.Proof

end
